-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8388608 : Shape := ⟨1, ![8388608]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_arg1 : IVec S8388608 32) (main_v13 : IVec S_ 1) (main_v15 : IVec S8388608 1) (main_c_5 : IVec S_ 1) : IVec S_ 1 :=
  let main_v16 : IVec S_ 1 := (fun x v => Host.reduce IntOp.andi x v reducesTo_S8388608_S_d0 h_S_) main_v15 main_c_5
  let main_v17 : IVec S_ 1 := andi main_v13 main_v16
  let main_c_6 : IVec S_ 32 := constantI S_ 32 3#32
  let main_v18 : IVec S8388608 32 := broadcastInDim S8388608 ![] bcast_S_S8388608 main_c_6
  let main_v19 : IVec S8388608 1 := cmpi .slt main_arg1 main_v18
  let main_c_7 : IVec S_ 1 := constantI S_ 1 1#1
  let main_v20 : IVec S_ 1 := (fun x v => Host.reduce IntOp.andi x v reducesTo_S8388608_S_d0 h_S_) main_v19 main_c_7
  let main_v21 : IVec S_ 1 := andi main_v17 main_v20
  main_v21

def fn {F : FTy → Type} [FloatOps F] (main_arg0 : FVec F S8388608x3 .f32) (main_arg1 : IVec S8388608 32) (main_arg2 : FVec F S8388608 .f32) (main_arg3 : FVec F S8388608 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S8388608 .f32 := Host.absf main_arg2
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S8388608 .f32 := Host.absf main_arg3
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  let main_c_4 : IVec S_ 32 := constantI S_ 32 0#32
  let main_v14 : IVec S8388608 32 := broadcastInDim S8388608 ![] bcast_S_S8388608 main_c_4
  let main_v15 : IVec S8388608 1 := cmpi .sge main_arg1 main_v14
  let main_c_5 : IVec S_ 1 := constantI S_ 1 1#1
  fn_part1 (F := F) main_arg1 main_v13 main_v15 main_c_5
-- ==== Kernel.lean ====
abbrev S8388608x3 : Shape := ⟨2, ![8388608, 3]⟩
abbrev S8388608 : Shape := ⟨1, ![8388608]⟩
abbrev S3x8388608 : Shape := ⟨2, ![3, 8388608]⟩
abbrev S16x128 : Shape := ⟨2, ![16, 128]⟩
abbrev S3x131072 : Shape := ⟨2, ![3, 131072]⟩
abbrev S131072 : Shape := ⟨1, ![131072]⟩
abbrev S8x128 : Shape := ⟨2, ![8, 128]⟩
abbrev S1x131072 : Shape := ⟨2, ![1, 131072]⟩
abbrev S1024x128 : Shape := ⟨2, ![1024, 128]⟩
abbrev S128x8x128 : Shape := ⟨3, ![128, 8, 128]⟩
abbrev S_ : Shape := ⟨0, ![]⟩

abbrev nBuf : Space → Nat
  | .hbm => 36
  | .vmem => 16
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S8388608, .f32⟩
  | .hbm, ⟨3, _⟩ => ⟨S8388608, .f32⟩
  | .hbm, ⟨4, _⟩ => ⟨S3x8388608, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S3x131072, .f32⟩
  | .local _ .vmem, ⟨1, _⟩ => ⟨S3x131072, .f32⟩
  | .local _ .vmem, ⟨2, _⟩ => ⟨S131072, .i32⟩
  | .local _ .vmem, ⟨3, _⟩ => ⟨S131072, .i32⟩
  | .local _ .vmem, ⟨4, _⟩ => ⟨S131072, .f32⟩
  | .local _ .vmem, ⟨5, _⟩ => ⟨S131072, .f32⟩
  | .local _ .vmem, ⟨6, _⟩ => ⟨S131072, .f32⟩
  | .local _ .vmem, ⟨7, _⟩ => ⟨S131072, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_cst_5 : Ref sig .tc := ⟨.hbm, 21, rfl⟩
abbrev main_v8 : Ref sig .tc := ⟨.hbm, 22, rfl⟩
abbrev main_cst_6 : Ref sig .tc := ⟨.hbm, 23, rfl⟩
abbrev main_v9 : Ref sig .tc := ⟨.hbm, 24, rfl⟩
abbrev main_cst_7 : Ref sig .tc := ⟨.hbm, 25, rfl⟩
abbrev main_v10 : Ref sig .tc := ⟨.hbm, 26, rfl⟩
abbrev main_v11 : Ref sig .tc := ⟨.hbm, 27, rfl⟩
abbrev main_cst_8 : Ref sig .tc := ⟨.hbm, 28, rfl⟩
abbrev main_v12 : Ref sig .tc := ⟨.hbm, 29, rfl⟩
abbrev main_cst_9 : Ref sig .tc := ⟨.hbm, 30, rfl⟩
abbrev main_v13 : Ref sig .tc := ⟨.hbm, 31, rfl⟩
abbrev main_v14 : Ref sig .tc := ⟨.hbm, 32, rfl⟩
abbrev main_cst_10 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S8388608x3_S3x8388608_1_0 : S8388608x3.Transposes [1, 0] S3x8388608
  inb_S8x128_S8x128_0_0 : ∀ a, (![0, 0] : Fin 2 → Nat) a + S8x128.size a ≤ S8x128.size a
  h_S8x128 : 0 < S8x128.numel
  inb_S3x131072_S3x131072_0_0 : ∀ a, (![0, 0] : Fin 2 → Nat) a + S3x131072.size a ≤ S3x131072.size a
  h_S3x131072 : 0 < S3x131072.numel
  shapeCasts_S3x131072_S3x131072 : S3x131072.ShapeCasts S3x131072
  inb_S131072_S131072_0 : ∀ a, (![0] : Fin 1 → Nat) a + S131072.size a ≤ S131072.size a
  h_S131072 : 0 < S131072.numel
  slices_S3x131072_o0_0_S1x131072 : S3x131072.Slices ![0, 0] S1x131072
  shapeCasts_S1x131072_S131072 : S1x131072.ShapeCasts S131072
  slices_S3x131072_o1_0_S1x131072 : S3x131072.Slices ![1, 0] S1x131072
  slices_S3x131072_o2_0_S1x131072 : S3x131072.Slices ![2, 0] S1x131072
  shapeCasts_S8x128_S8x128 : S8x128.ShapeCasts S8x128
  shapeCasts_S131072_S1024x128 : S131072.ShapeCasts S1024x128
  shapeCasts_S1024x128_S128x8x128 : S1024x128.ShapeCasts S128x8x128
  reduces_S128x8x128_S8x128 : S128x8x128.Reduces [0] S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x131072.size a ≤ S3x8388608.size a
  hwx0_0 : ∀ i : grid0.Coords, EltTy.bits .f32 = 32 ∨ (Rect.block (s := S3x8388608) S3x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S131072.size a ≤ S8388608.size a
  hwx0_1 : ∀ i : grid0.Coords, EltTy.bits .i32 = 32 ∨ (Rect.block (s := S8388608) S131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S131072.size a ≤ S8388608.size a
  hwx0_2 : ∀ i : grid0.Coords, EltTy.bits .f32 = 32 ∨ (Rect.block (s := S8388608) S131072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S131072.size a ≤ S8388608.size a
  hwx0_3 : ∀ i : grid0.Coords, EltTy.bits .f32 = 32 ∨ (Rect.block (s := S8388608) S131072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)

variable [Facts₀]

abbrev win0_0 : Pipeline.Window sig grid0 :=
  Pipeline.Window.ofSpec (Memref.whole main_v0) S3x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S131072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S131072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_3) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608 : Shape := ⟨1, ![8388608]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S8388608, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S8388608x1, .f32⟩
  | .hbm, ⟨10, _⟩ => ⟨S8388608x3, .f32⟩
  | .hbm, ⟨11, _⟩ => ⟨S8388608x3, .f32⟩
  | .hbm, ⟨12, _⟩ => ⟨S8388608x3, .f32⟩
  | .hbm, ⟨13, _⟩ => ⟨S_, .f32⟩
  | .hbm, ⟨14, _⟩ => ⟨S8388608, .f32⟩
  | .hbm, ⟨15, _⟩ => ⟨S8388608x1, .f32⟩
  | .hbm, ⟨16, _⟩ => ⟨S8388608x1, .f32⟩
  | .hbm, ⟨17, _⟩ => ⟨S8388608x3, .f32⟩
  | .hbm, ⟨18, _⟩ => ⟨S8388608x3, .f32⟩
  | .hbm, ⟨19, _⟩ => ⟨S8388608x1, .i32⟩
  | .hbm, ⟨20, _⟩ => ⟨S_, .i32⟩
  | .hbm, ⟨21, _⟩ => ⟨S8388608x1, .i32⟩
  | .hbm, ⟨22, _⟩ => ⟨S8388608x1, .i1⟩
  | .hbm, ⟨23, _⟩ => ⟨S_, .i32⟩
  | .hbm, ⟨24, _⟩ => ⟨S8388608x1, .i32⟩
  | .hbm, ⟨25, _⟩ => ⟨S8388608x1, .i32⟩
  | .hbm, ⟨26, _⟩ => ⟨S8388608x1, .i32⟩
  | .hbm, ⟨27, _⟩ => ⟨S8388608x1x1, .i32⟩
  | .hbm, ⟨28, _⟩ => ⟨S1, .i32⟩
  | .hbm, ⟨29, _⟩ => ⟨S_, .i32⟩
  | .hbm, ⟨30, _⟩ => ⟨S8388608x1x1, .i32⟩
  | .hbm, ⟨31, _⟩ => ⟨S8388608x1x1, .i1⟩
  | .hbm, ⟨32, _⟩ => ⟨S1x1x1, .i32⟩
  | .hbm, ⟨33, _⟩ => ⟨S8388608x1x1, .i32⟩
  | .hbm, ⟨34, _⟩ => ⟨S8388608x1x1, .i1⟩
  | .hbm, ⟨35, _⟩ => ⟨S8388608x1x1, .i1⟩
  | .hbm, ⟨36, _⟩ => ⟨S_, .i1⟩
  | .hbm, ⟨37, _⟩ => ⟨S8388608x1, .i1⟩
  | .hbm, ⟨38, _⟩ => ⟨S8388608x1, .f32⟩
  | .hbm, ⟨39, _⟩ => ⟨S_, .f32⟩
  | .hbm, ⟨40, _⟩ => ⟨S8388608x1, .f32⟩
  | .hbm, ⟨41, _⟩ => ⟨S8388608x1, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8388608, .f32⟩
  | .hbm, ⟨52, _⟩ => ⟨S8388608, .f32⟩
  | .hbm, ⟨53, _⟩ => ⟨S8388608, .f32⟩
  | .hbm, ⟨54, _⟩ => ⟨S_, .f32⟩
  | .hbm, ⟨55, _⟩ => ⟨S8388608, .f32⟩
  | .hbm, ⟨56, _⟩ => ⟨S8388608, .i1⟩
  | .hbm, ⟨57, _⟩ => ⟨S_, .i32⟩
  | .hbm, ⟨58, _⟩ => ⟨S8388608, .i32⟩
  | .hbm, ⟨59, _⟩ => ⟨S8388608, .i1⟩
  | .hbm, ⟨60, _⟩ => ⟨S8388608, .i1⟩
  | .hbm, ⟨61, _⟩ => ⟨S_, .f32⟩
  | .hbm, ⟨62, _⟩ => ⟨S8388608, .f32⟩
  | .hbm, ⟨63, _⟩ => ⟨S8388608, .i1⟩
  | .hbm, ⟨64, _⟩ => ⟨S_, .i32⟩
  | .hbm, ⟨65, _⟩ => ⟨S8388608, .i32⟩
  | .hbm, ⟨66, _⟩ => ⟨S8388608, .i1⟩
  | .hbm, ⟨67, _⟩ => ⟨S8388608, .i1⟩
  | .hbm, ⟨68, _⟩ => ⟨S8388608, .i1⟩
  | .hbm, ⟨69, _⟩ => ⟨S_, .f32⟩
  | .hbm, ⟨70, _⟩ => ⟨S_, .f32⟩
  | .hbm, ⟨71, _⟩ => ⟨S8388608, .f32⟩
  | .hbm, ⟨72, _⟩ => ⟨S8388608, .f32⟩
  | .hbm, ⟨73, _⟩ => ⟨S8388608, .f32⟩
  | .hbm, ⟨74, _⟩ => ⟨S8388608, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_cst : Ref sig .tc := ⟨.hbm, 45, rfl⟩
abbrev main_v6 : Ref sig .tc := ⟨.hbm, 46, rfl⟩
abbrev main_cst_0 : Ref sig .tc := ⟨.hbm, 47, rfl⟩
abbrev main_v7 : Ref sig .tc := ⟨.hbm, 48, rfl⟩
abbrev main_cst_1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_2 : Ref sig .tc := ⟨.hbm, 54, rfl⟩
abbrev main_v12 : Ref sig .tc := ⟨.hbm, 55, rfl⟩
abbrev main_v13 : Ref sig .tc := ⟨.hbm, 56, rfl⟩
abbrev main_c : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_3 : Ref sig .tc := ⟨.hbm, 61, rfl⟩
abbrev main_v17 : Ref sig .tc := ⟨.hbm, 62, rfl⟩
abbrev main_v18 : Ref sig .tc := ⟨.hbm, 63, rfl⟩
abbrev main_c_4 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_5 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_v23 : Ref sig .tc := ⟨.hbm, 73, rfl⟩
abbrev main_v24 : Ref sig .tc := ⟨.hbm, 74, rfl⟩
abbrev main_cst_7 : Ref sig .tc := ⟨.hbm, 75, rfl⟩
abbrev main_v25 : Ref sig .tc := ⟨.hbm, 76, rfl⟩
abbrev main_cst_8 : Ref sig .tc := ⟨.hbm, 77, rfl⟩
abbrev main_v26 : Ref sig .tc := ⟨.hbm, 78, rfl⟩
abbrev main_cst_9 : Ref sig .tc := ⟨.hbm, 79, rfl⟩
abbrev main_v27 : Ref sig .tc := ⟨.hbm, 80, rfl⟩
abbrev main_cst_10 : Ref sig .tc := ⟨.hbm, 81, rfl⟩
abbrev main_v28 : Ref sig .tc := ⟨.hbm, 82, rfl⟩
abbrev main_cst_11 : Ref sig .tc := ⟨.hbm, 83, rfl⟩
abbrev main_v29 : Ref sig .tc := ⟨.hbm, 84, rfl⟩
abbrev main_cst_12 : Ref sig .tc := ⟨.hbm, 85, rfl⟩
abbrev main_v30 : Ref sig .tc := ⟨.hbm, 86, rfl⟩
abbrev main_v31 : Ref sig .tc := ⟨.hbm, 87, rfl⟩
abbrev main_cst_13 : Ref sig .tc := ⟨.hbm, 88, rfl⟩
abbrev main_v32 : Ref sig .tc := ⟨.hbm, 89, rfl⟩
abbrev main_cst_14 : Ref sig .tc := ⟨.hbm, 90, rfl⟩
abbrev main_v33 : Ref sig .tc := ⟨.hbm, 91, rfl⟩
abbrev main_cst_15 : Ref sig .tc := ⟨.hbm, 92, rfl⟩
abbrev main_v34 : Ref sig .tc := ⟨.hbm, 93, rfl⟩
abbrev main_v35 : Ref sig .tc := ⟨.hbm, 94, rfl⟩

abbrev nD : Nat := 1
abbrev τ : Topo := Topo.v7x

variable {F : FTy → Type} [FloatOps F]

class Facts₀ : Prop where
  reducesTo_S8388608x3_S8388608_d1 : S8388608x3.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  reducesTo_S8388608_S_d0 : S8388608.ReducesTo [0] S_
  gather_S8388608x3_S8388608x1x1_S8388608x1_n_1_0_0_1_2_11_wf : GatherDims.WF S8388608x3 S8388608x1x1 S8388608x1 [] [1] [0] [1] [0] 2 ![1, 1]

variable [Facts₀]

def gather_S8388608x3_S8388608x1x1_S8388608x1_n_1_0_0_1_2_11 : GatherDims S8388608x3 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x3_S8388608x1x1_S8388608x1_n_1_0_0_1_2_11_wf

class Facts : Prop extends Facts₀ where

variable [Facts]
-- ==== Proof.KDefs.lean ====
/-
  The kernel's accumulation, named.  At grid point t (core t / 32, step t % 32) the body folds four vectors of the
  point's 131072 rows — the cross entropies, their products with |price change|, the |price change|s and the trend
  terms — each into an [8,128] block (a sum over 128 groups of 1024 consecutive rows), and adds that to the block
  the point before left; a core's first point starts from the zero block.
-/
import proofs.«417023_j44762149159049_3_alg».proof.Proof.Gen.KernelIdeal.Frame
import Idealize.ShloMosaic.Lib.ValueIdx

noncomputable section

namespace Cert.KernelIdeal.KVal

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The point's blocks of the four inputs, at their literal types. -/
abbrev pblk (c : Dev nD) (t : Fin cfg0.N) : Vec F S3x131072 .f32 := iblk m c 0 t
abbrev tblk (c : Dev nD) (t : Fin cfg0.N) : Vec F S131072 .i32 := iblk m c 1 t
abbrev qblk (c : Dev nD) (t : Fin cfg0.N) : Vec F S131072 .f32 := iblk m c 2 t
abbrev rblk (c : Dev nD) (t : Fin cfg0.N) : Vec F S131072 .f32 := iblk m c 3 t

/-- The zero block a core's first point starts from. -/
def zero8 : Vec F S8x128 .f32 := broadcast S8x128 (Scalar.ofBits .f32 0x00000000#32)

/-- What one point adds, per output: the block it is given plus the fold of the point's vector. -/
def step4 (c : Dev nD) (t : Fin cfg0.N) (xo : Vec F S8x128 .f32) : Vec F S8x128 .f32 :=
  k0_pay11 (k0_pay5 (pblk m c t) (tblk m c t)) xo
def step5 (c : Dev nD) (t : Fin cfg0.N) (xo : Vec F S8x128 .f32) : Vec F S8x128 .f32 :=
  k0_pay12 (k0_pay7 (pblk m c t) (tblk m c t) (qblk m c t)) xo
def step6 (c : Dev nD) (t : Fin cfg0.N) (xo : Vec F S8x128 .f32) : Vec F S8x128 .f32 :=
  k0_pay13 (k0_pay6 (qblk m c t)) xo
def step7 (c : Dev nD) (t : Fin cfg0.N) (xo : Vec F S8x128 .f32) : Vec F S8x128 .f32 :=
  k0_pay14 (k0_pay8 (tblk m c t) (rblk m c t)) (k0_pay9 (rblk m c t)) (k0_pay10 (tblk m c t)) xo

/-- The running block after point n: a core's first point (n a multiple of 32) steps from zero, the others from what the
    point before left. -/
def acc (step : Fin cfg0.N → Vec F S8x128 .f32 → Vec F S8x128 .f32) : (n : ℕ) → n < cfg0.N → Vec F S8x128 .f32
  | 0, h => step ⟨0, h⟩ zero8
  | n + 1, h => if (n + 1) % 32 = 0 then step ⟨n + 1, h⟩ zero8 else step ⟨n + 1, h⟩ (acc step n (Nat.lt_of_succ_lt h))

theorem acc_first (step : Fin cfg0.N → Vec F S8x128 .f32 → Vec F S8x128 .f32) (t : Fin cfg0.N) (h0 : t.val % 32 = 0) :
    acc step t.val t.isLt = step t zero8 := by
  obtain ⟨n, hn⟩ := t
  cases n with
  | zero => rfl
  | succ n => exact (if_pos h0)

theorem acc_next (step : Fin cfg0.N → Vec F S8x128 .f32 → Vec F S8x128 .f32) (t : Fin cfg0.N) (h0 : ¬t.val % 32 = 0) :
    acc step t.val t.isLt = step t (acc step (t.val - 1) (Nat.lt_of_le_of_lt (Nat.sub_le _ _) t.isLt)) := by
  obtain ⟨n, hn⟩ := t
  cases n with
  | zero => exact absurd (Nat.zero_mod _) h0
  | succ n => exact (if_neg h0)

abbrev acc4 (c : Dev nD) := acc (step4 m c)
abbrev acc5 (c : Dev nD) := acc (step5 m c)
abbrev acc6 (c : Dev nD) := acc (step6 m c)
abbrev acc7 (c : Dev nD) := acc (step7 m c)

/-- The last point of a core: core k's is 32 k + 31. -/
def lastPt (k : Fin 2) : Fin cfg0.N := ⟨32 * k.val + 31, by rw [show cfg0.N = 64 from N_0]; omega⟩

/-- An output array after the run: rows 8k .. 8k+7 are core k's block after its last point. -/
def coreOf (i : S16x128.Idx) : Fin 2 := ⟨(i 0).val / 8, by have h : (i 0).val < 16 := (i 0).isLt; omega⟩
def rowOf (i : S16x128.Idx) : Fin 8 := ⟨(i 0).val % 8, Nat.mod_lt _ (by decide)⟩
def outArr (step : Fin cfg0.N → Vec F S8x128 .f32 → Vec F S8x128 .f32) : Vec F S16x128 .f32 := fun i =>
  acc step (lastPt (coreOf i)).val (lastPt (coreOf i)).isLt (ValueIdx.ix2 (rowOf i) (i 1))

end Cert.KernelIdeal.KVal

end
-- ==== Proof.KBlocks.lean ====
/-
  The four input blocks of a grid point, read at an index: point t stages rows 131072 t .. 131072 t + 131071 of each
  input; the scores come through the host's transpose, so entry (k, q) of the block is score k of row 131072 t + q.
-/
import proofs.«417023_j44762149159049_3_alg».proof.Proof.KDefs
import Idealize.ShloMosaic.Lib.Pipeline.Value
import Idealize.ShloMosaic.Lib.StableHlo.Run

noncomputable section

namespace Cert.KernelIdeal.KVal

open Idealize.ShloMosaic Idealize.ShloMosaic.TcCoe Idealize.SL.Sem
open Idealize.ShloMosaic.Pipeline (Dat)
open Cert.KernelIdeal Cert.KernelIdeal.Gen
open Idealize.ShloMosaic.ValueIdx

variable {F : FTy → Type} [FloatOps F]
variable (m : (ℓ : Loc nD τ sig) → Buf (Elt F) ℓ)

/-- Row q of point t's tile, as a row of the whole input. -/
def rowIx (t : Fin cfg0.N) (q : Fin 131072) : Fin 8388608 :=
  ⟨t.val * 131072 + q.val, by have h : t.val < 64 := lt_of_lt_of_eq t.isLt (show cfg0.N = 64 from N_0); have := q.isLt; omega⟩

/-! ## The index maps at a grid point

Point t = 32 core + step is sent by each map to block number t along the row axis (and, for the scores, to block 0 along
the three-score axis): 32 core + step stays below 2 ^ 32, so the 32-bit arithmetic of the maps is exact. Decided over the
64 points. -/

private theorem blk_idx0 : ∀ t : Fin grid0.N, win0_0.index t 0 = 0 ∧ win0_0.index t 1 = t.val := by decide +kernel
private theorem blk_idx1 : ∀ t : Fin grid0.N, win0_1.index t 0 = t.val := by decide +kernel
private theorem blk_idx2 : ∀ t : Fin grid0.N, win0_2.index t 0 = t.val := by decide +kernel
private theorem blk_idx3 : ∀ t : Fin grid0.N, win0_3.index t 0 = t.val := by decide +kernel

/-- The scores as the region finds them: the host's transpose of the launched [8388608, 3] array. -/
private theorem blk_V_main_v0 (c : Dev nD) : V m c main_v0
    = transpose S3x8388608 [1, 0] (m ((c : Thread nD τ).loc main_arg0)) transposes_S8388608x3_S3x8388608_1_0 := by
  show StableHlo.after hostOps0 (fun b => m (c, b)) (Proc.devRef .tc main_v0) = _
  after_results

/-! ## The blocks read at an index

A block's entry j sits in the array at block number × block size + j on each axis. -/

/-- Entry (k, q) of the score block is score k of row 131072 t + q: the transposed array read at (k, 131072 t + q). -/
theorem pblk_apply (c : Dev nD) (t : Fin cfg0.N) (k : Fin 3) (q : Fin 131072) :
    pblk m c t (ix2 k q) = m ((c.tc : Thread nD τ).loc main_arg0) (ix2 (rowIx t q) k) := by
  show iblk m c 0 t _ = _
  unfold iblk
  rw [View.read_apply]
  show V m c main_v0 _ = _
  rw [blk_V_main_v0]
  refine transpose_apply _ _ _ _ (ix2 (rowIx t q) k) fun b => ?_
  match b with
  | ⟨0, _⟩ => show k.val = win0_0.index t 0 * 3 + 1 * k.val; rw [(blk_idx0 t).1]; omega
  | ⟨1, _⟩ => show t.val * 131072 + q.val = win0_0.index t 1 * 131072 + 1 * q.val; rw [(blk_idx0 t).2]; omega

theorem tblk_apply (c : Dev nD) (t : Fin cfg0.N) (q : Fin 131072) :
    tblk m c t (ix1 q) = m ((c.tc : Thread nD τ).loc main_arg1) (ix1 (rowIx t q)) := by
  show iblk m c 1 t _ = _
  unfold iblk
  rw [View.read_apply]
  show V m c main_arg1 _ = _
  rw [V_main_arg1]
  congr 1
  funext a
  apply Fin.ext
  match a with
  | ⟨0, _⟩ => show win0_1.index t 0 * 131072 + 1 * q.val = t.val * 131072 + q.val; rw [blk_idx1 t]; omega

theorem qblk_apply (c : Dev nD) (t : Fin cfg0.N) (q : Fin 131072) :
    qblk m c t (ix1 q) = m ((c.tc : Thread nD τ).loc main_arg2) (ix1 (rowIx t q)) := by
  show iblk m c 2 t _ = _
  unfold iblk
  rw [View.read_apply]
  show V m c main_arg2 _ = _
  rw [V_main_arg2]
  congr 1
  funext a
  apply Fin.ext
  match a with
  | ⟨0, _⟩ => show win0_2.index t 0 * 131072 + 1 * q.val = t.val * 131072 + q.val; rw [blk_idx2 t]; omega

theorem rblk_apply (c : Dev nD) (t : Fin cfg0.N) (q : Fin 131072) :
    rblk m c t (ix1 q) = m ((c.tc : Thread nD τ).loc main_arg3) (ix1 (rowIx t q)) := by
  show iblk m c 3 t _ = _
  unfold iblk
  rw [View.read_apply]
  show V m c main_arg3 _ = _
  rw [V_main_arg3]
  congr 1
  funext a
  apply Fin.ext
  match a with
  | ⟨0, _⟩ => show win0_3.index t 0 * 131072 + 1 * q.val = t.val * 131072 + q.val; rw [blk_idx3 t]; omega

end Cert.KernelIdeal.KVal

end
-- ==== Proof.Spec.lean ====
/-
  The trading loss as ONE function of the four argument arrays, over the extended reals.

  Row j has three scores p0 p1 p2, a label t, a price change q and a trend r.  With M = max p0 p1 p2 and
  lse = log (e^(p0-M) + e^(p1-M) + e^(p2-M)), the row's cross entropy is lse - (p_t - M), written by one program
  in that form and by the other as -((p_t - M) - lse).  The loss is
      0.85 * mean_j (ce_j * |q_j| / D) + 0.15 * mean_j ce_j + 0.1 * mean_j trend_j ,   D = mean_j |q_j| + eps,
  one program dividing each row by D before the mean, the other dividing the mean of the products by D.
-/
import Idealize.ShloMosaic.PureOps.Ideal
import Idealize.ShloMosaic.Lib.ValueIdx

noncomputable section

namespace TradeLoss

open Idealize.ShloMosaic Idealize.ShloMosaic.ValueIdx

/-- The number of rows. -/
abbrev N : Nat := 8388608

/-- The row's label picks one of the three scores: the first for label 0, the second for label 1, else the third. -/
def pick (p0 p1 p2 : EReal) (t : BitVec 32) : EReal :=
  Scalar.select (IntOp.cmpi .eq t 0#32) p0 (Scalar.select (IntOp.cmpi .eq t 1#32) p1 p2)

/-- The largest of the three scores. -/
def top (p0 p1 p2 : EReal) : EReal := max (max p0 p1) p2

/-- log of the sum of the three shifted exponentials. -/
def lse (p0 p1 p2 : EReal) : EReal :=
  Ideal.log (Ideal.exp (p0 - top p0 p1 p2) + Ideal.exp (p1 - top p0 p1 p2) + Ideal.exp (p2 - top p0 p1 p2))

/-- The row's cross entropy, as lse - (p_t - M). -/
def ceK (p0 p1 p2 : EReal) (t : BitVec 32) : EReal := lse p0 p1 p2 - (pick p0 p1 p2 t - top p0 p1 p2)

/-- The row's cross entropy, as -((p_t - M) - lse). -/
def ceR (p0 p1 p2 : EReal) (t : BitVec 32) : EReal := -((pick p0 p1 p2 t - top p0 p1 p2) - lse p0 p1 p2)

/-- |q|. -/
def av (q : EReal) : EReal := max q (-q)

/-- The row's trend term: -0.1 (the f32 nearest it) when the trend is up and the label is 2, or the trend is down and
    the label is 0; else 0. -/
def tr (r : EReal) (t : BitVec 32) : EReal :=
  Scalar.select
    (IntOp.ori (IntOp.andi (Ideal.cmp .ogt r (Ideal.ofBits .f32 0x00000000#32)) (IntOp.cmpi .eq t 2#32))
      (IntOp.andi (Ideal.cmp .olt r (Ideal.ofBits .f32 0x00000000#32)) (IntOp.cmpi .eq t 0#32)))
    (Ideal.ofBits .f32 0xBDCCCCCD#32) (Ideal.ofBits .f32 0x00000000#32)

variable (P : (⟨2, ![N, 3]⟩ : Shape).Idx → EReal) (T : (⟨1, ![N]⟩ : Shape).Idx → BitVec 32)
  (Q R : (⟨1, ![N]⟩ : Shape).Idx → EReal)

def rowCeK (j : Fin N) : EReal := ceK (P (ix2 j 0)) (P (ix2 j 1)) (P (ix2 j 2)) (T (ix1 j))
def rowCeR (j : Fin N) : EReal := ceR (P (ix2 j 0)) (P (ix2 j 1)) (P (ix2 j 2)) (T (ix1 j))
def rowAv (j : Fin N) : EReal := av (Q (ix1 j))
def rowTr (j : Fin N) : EReal := tr (R (ix1 j)) (T (ix1 j))

/-- The row count as a float, 2^23. -/
abbrev nW : EReal := Ideal.ofBits .f32 0x4B000000#32
/-- eps (the f32 nearest 1e-8). -/
abbrev epsW : EReal := Ideal.ofBits .f32 0x322BCC77#32
abbrev w85 : EReal := Ideal.ofBits .f32 0x3F59999A#32
abbrev w15 : EReal := Ideal.ofBits .f32 0x3E19999A#32
abbrev w10 : EReal := Ideal.ofBits .f32 0x3DCCCCCD#32

/-- The mean of |q| plus eps. -/
def denom : EReal := Ideal.div (∑ j : Fin N, rowAv Q j) nW + epsW

/-- The loss with the mean of the products divided by D. -/
def kTotal : EReal :=
  (w85 * Ideal.div (Ideal.div (∑ j : Fin N, rowCeK P T j * rowAv Q j) nW) (denom Q)
    + w15 * Ideal.div (∑ j : Fin N, rowCeK P T j) nW)
  + w10 * Ideal.div (∑ j : Fin N, rowTr T R j) nW

/-- The loss with every row divided by D before the mean. -/
def rTotal : EReal :=
  (w85 * Ideal.div (∑ j : Fin N, rowCeR P T j * Ideal.div (rowAv Q j) (denom Q)) nW
    + w15 * Ideal.div (∑ j : Fin N, rowCeR P T j) nW)
  + w10 * Ideal.div (∑ j : Fin N, rowTr T R j) nW

end TradeLoss

end
-- ==== Proof.KRows.lean ====
/-
  The body's four per-row vectors over the extended reals, read at a row of the tile: they are the loss's row
  functions of the whole inputs at that row.
-/
import proofs.«417023_j44762149159049_3_alg».proof.Proof.KBlocks
import proofs.«417023_j44762149159049_3_alg».proof.Proof.Spec
import Idealize.ShloMosaic.Lib.ValueLayout

noncomputable section

namespace Cert.KernelIdeal.KVal

open Idealize.ShloMosaic Idealize.ShloMosaic.TcCoe Idealize.SL.Sem
open Idealize.ShloMosaic.Pipeline (Dat)
open Cert.KernelIdeal Cert.KernelIdeal.Gen
open Idealize.ShloMosaic.ValueIdx

variable (m : (ℓ : Loc nD τ sig) → Buf (Elt Ideal) ℓ)

/-- The trend vector the body folds into the fourth output: -0.1 where the masks say aligned, else 0. -/
def trVec {F : FTy → Type} [FloatOps F] (v39 v41 v43 : IVec S131072 1) : FVec F S131072 .f32 :=
  select (ori v39 (andi v41 v43)) (broadcast S131072 (Scalar.ofBits .f32 0xBDCCCCCD#32))
    (broadcast S131072 (Scalar.ofBits .f32 0x00000000#32))

section Rows
variable {α : Type}

/-- Row 0 of the [3,131072] block, viewed as a vector, read at q. -/
theorem row0_apply (v3 : S3x131072.Idx → α) (q : Fin 131072) :
    shapeCast S131072 (extractStridedSlice S1x131072 ![0, 0] (shapeCast S3x131072 v3 shapeCasts_S3x131072_S3x131072)
      slices_S3x131072_o0_0_S1x131072) shapeCasts_S1x131072_S131072 (ix1 q) = v3 (ix2 (0 : Fin 3) q) := by
  rw [shapeCast_self]
  refine (shapeCast_1a_a_apply _ _ q).trans ?_
  exact extractStridedSlice_apply _ _ _ _ (ix2 (0 : Fin 3) q) (fun a => match a with
    | ⟨0, _⟩ => by show 0 = 0 + 0; rfl
    | ⟨1, _⟩ => by show q.val = 0 + q.val; omega)

theorem row1_apply (v3 : S3x131072.Idx → α) (q : Fin 131072) :
    shapeCast S131072 (extractStridedSlice S1x131072 ![1, 0] (shapeCast S3x131072 v3 shapeCasts_S3x131072_S3x131072)
      slices_S3x131072_o1_0_S1x131072) shapeCasts_S1x131072_S131072 (ix1 q) = v3 (ix2 (1 : Fin 3) q) := by
  rw [shapeCast_self]
  refine (shapeCast_1a_a_apply _ _ q).trans ?_
  exact extractStridedSlice_apply _ _ _ _ (ix2 (1 : Fin 3) q) (fun a => match a with
    | ⟨0, _⟩ => by show 1 = 1 + 0; rfl
    | ⟨1, _⟩ => by show q.val = 0 + q.val; omega)

theorem row2_apply (v3 : S3x131072.Idx → α) (q : Fin 131072) :
    shapeCast S131072 (extractStridedSlice S1x131072 ![2, 0] (shapeCast S3x131072 v3 shapeCasts_S3x131072_S3x131072)
      slices_S3x131072_o2_0_S1x131072) shapeCasts_S1x131072_S131072 (ix1 q) = v3 (ix2 (2 : Fin 3) q) := by
  rw [shapeCast_self]
  refine (shapeCast_1a_a_apply _ _ q).trans ?_
  exact extractStridedSlice_apply _ _ _ _ (ix2 (2 : Fin 3) q) (fun a => match a with
    | ⟨0, _⟩ => by show 2 = 2 + 0; rfl
    | ⟨1, _⟩ => by show q.val = 0 + q.val; omega)

end Rows

/-- The cross-entropy vector at a row of the tile, over the block's own entries. -/
theorem pay5_apply (v3 : Vec Ideal S3x131072 .f32) (v5 : Vec Ideal S131072 .i32) (q : Fin 131072) :
    k0_pay5 v3 v5 (ix1 q)
      = TradeLoss.ceK (v3 (ix2 (0 : Fin 3) q)) (v3 (ix2 (1 : Fin 3) q)) (v3 (ix2 (2 : Fin 3) q)) (v5 (ix1 q)) := by
  unfold k0_pay5 TradeLoss.ceK TradeLoss.lse TradeLoss.top TradeLoss.pick
  simp only [Idealize.ShloMosaic.subf, Idealize.ShloMosaic.addf, Idealize.ShloMosaic.maximumf, Idealize.ShloMosaic.exp,
    Idealize.ShloMosaic.log, Idealize.ShloMosaic.select, Idealize.ShloMosaic.cmpi, Idealize.ShloMosaic.broadcast,
    row0_apply, row1_apply, row2_apply]
  rfl

theorem ce_apply (c : Dev nD) (t : Fin cfg0.N) (q : Fin 131072) :
    k0_pay5 (pblk m c t) (tblk m c t) (ix1 q)
      = TradeLoss.rowCeK (m ((c.tc : Thread nD τ).loc main_arg0)) (m ((c.tc : Thread nD τ).loc main_arg1)) (rowIx t q) := by
  refine (pay5_apply _ _ q).trans ?_
  unfold TradeLoss.rowCeK
  rw [pblk_apply m c t 0 q, pblk_apply m c t 1 q, pblk_apply m c t 2 q, tblk_apply m c t q]
theorem av_apply (c : Dev nD) (t : Fin cfg0.N) (q : Fin 131072) :
    k0_pay6 (qblk m c t) (ix1 q) = TradeLoss.rowAv (m ((c.tc : Thread nD τ).loc main_arg2)) (rowIx t q) := by
  unfold k0_pay6 TradeLoss.rowAv TradeLoss.av
  show FloatOps.absf (qblk m c t (ix1 q)) = _
  rw [qblk_apply m c t q]
  rfl
theorem cp_apply (c : Dev nD) (t : Fin cfg0.N) (q : Fin 131072) :
    k0_pay7 (pblk m c t) (tblk m c t) (qblk m c t) (ix1 q)
      = TradeLoss.rowCeK (m ((c.tc : Thread nD τ).loc main_arg0)) (m ((c.tc : Thread nD τ).loc main_arg1)) (rowIx t q)
        * TradeLoss.rowAv (m ((c.tc : Thread nD τ).loc main_arg2)) (rowIx t q) := by
  unfold k0_pay7
  show FloatOps.mulf (k0_pay5 (pblk m c t) (tblk m c t) (ix1 q)) (k0_pay6 (qblk m c t) (ix1 q)) = _
  rw [ce_apply m c t q, av_apply m c t q]
  rfl
theorem tr_apply (c : Dev nD) (t : Fin cfg0.N) (q : Fin 131072) :
    trVec (F := Ideal) (k0_pay8 (tblk m c t) (rblk m c t)) (k0_pay9 (rblk m c t)) (k0_pay10 (tblk m c t)) (ix1 q)
      = TradeLoss.rowTr (m ((c.tc : Thread nD τ).loc main_arg1)) (m ((c.tc : Thread nD τ).loc main_arg3)) (rowIx t q) := by
  unfold trVec k0_pay8 k0_pay9 k0_pay10 TradeLoss.rowTr TradeLoss.tr
  simp only [Idealize.ShloMosaic.select, Idealize.ShloMosaic.ori, Idealize.ShloMosaic.andi, Idealize.ShloMosaic.cmpf,
    Idealize.ShloMosaic.cmpi, Idealize.ShloMosaic.broadcast]
  rw [tblk_apply m c t q, rblk_apply m c t q]
  rfl

end Cert.KernelIdeal.KVal

end
-- ==== Proof.KFold.lean ====
/-
  One point's step over the extended reals, read at an entry (r, l) of the [8,128] block: the entry it was given plus
  the sum over the 128 groups g of the point's vector at row 1024 g + 128 r + l of the tile.
-/
import proofs.«417023_j44762149159049_3_alg».proof.Proof.KRows
import Idealize.ShloMosaic.PureOps.Ideal.Laws
import Idealize.ShloMosaic.Lib.Pipeline.Value
import Idealize.ShloMosaic.Lib.ValueLayout

noncomputable section

namespace Cert.KernelIdeal.KVal

open Idealize.ShloMosaic Idealize.ShloMosaic.TcCoe Idealize.SL.Sem
open Idealize.ShloMosaic.Pipeline (Dat)
open Cert.KernelIdeal Cert.KernelIdeal.Gen
open Idealize.ShloMosaic.ValueIdx

/-- Row 1024 g + 128 r + l of a tile. -/
def laneIx (g : Fin 128) (r : Fin 8) (l : Fin 128) : Fin 131072 :=
  ⟨g.val * 1024 + r.val * 128 + l.val, by have := g.isLt; have := r.isLt; have := l.isLt; omega⟩

namespace KFold

/-- Over the entry (r, l) of the [8,128] block, the index of the [128,8,128] array with g on the reduced axis is
    (g, r, l). -/
theorem lift_ix (h : S128x8x128.Reduces [0] S8x128) (r : Fin 8) (l : Fin 128) (g : Fin 128) :
    h.lift (ix2 r l) g = ix3 g r l := by
  funext c
  match c with
  | ⟨0, _⟩ => rfl
  | ⟨1, _⟩ => rfl
  | ⟨2, _⟩ => rfl

/-- The two row-major reshapes [131072] → [1024,128] → [128,8,128] read at (g, r, l): the vector at position
    1024 g + 128 r + l. -/
theorem reshape_ix {α : Type} (v : S131072.Idx → α) (h2 : S131072.ShapeCasts S1024x128)
    (h3 : S1024x128.ShapeCasts S128x8x128) (g : Fin 128) (r : Fin 8) (l : Fin 128) :
    shapeCast S128x8x128 (shapeCast S1024x128 v h2) h3 (ix3 g r l) = v (ix1 (laneIx g r l)) := by
  have hg := g.isLt
  have hr := r.isLt
  have hl := l.isLt
  refine (shapeCast_apply _ h3 (ix3 g r l) (ix2 (⟨g.val * 8 + r.val, by omega⟩ : Fin 1024) l) ?_).trans ?_
  · rw [Shape.rowMajor_val_two, Shape.rowMajor_val_three]
    show (g.val * 8 + r.val) * 128 + l.val = (g.val * 8 + r.val) * 128 + l.val
    rfl
  · refine shapeCast_apply _ h2 _ (ix1 (laneIx g r l)) ?_
    rw [Shape.rowMajor_val_one, Shape.rowMajor_val_two]
    show g.val * 1024 + r.val * 128 + l.val = (g.val * 8 + r.val) * 128 + l.val
    omega

/-- The fold of a [131072] vector into the [8,128] block, added to the block given: at (r, l), the entry given plus
    the sum over the 128 groups of the vector at row 1024 g + 128 r + l. -/
theorem fold_apply (v : FVec Ideal S131072 .f32) (xo : Vec Ideal S8x128 .f32)
    (h1 : S8x128.ShapeCasts S8x128) (h2 : S131072.ShapeCasts S1024x128) (h3 : S1024x128.ShapeCasts S128x8x128)
    (h4 : S128x8x128.Reduces [0] S8x128) (hφ : FKind.Formats .f32)
    (hacc : (0x00000000#32 : BitVec 32) = FKind.add.neutral .f32 hφ) (r : Fin 8) (l : Fin 128) :
    addf (shapeCast S8x128 xo h1)
        (multiReduction .add [0] S8x128 (shapeCast S128x8x128 (shapeCast S1024x128 v h2) h3) 0x00000000#32 h4 hφ hacc)
        (ix2 r l)
      = xo (ix2 r l) + ∑ g : Fin 128, v (ix1 (laneIx g r l)) := by
  show shapeCast S8x128 xo h1 (ix2 r l)
      + multiReduction .add [0] S8x128 (shapeCast S128x8x128 (shapeCast S1024x128 v h2) h3) 0x00000000#32 h4 hφ hacc
          (ix2 r l) = _
  rw [shapeCast_self]
  congr 1
  refine (Ideal.multiReduction_add_single _ _ h4 hφ hacc (ix2 r l)).trans ?_
  refine Finset.sum_congr rfl fun (g : Fin 128) _ => ?_
  exact (congrArg (shapeCast S128x8x128 (shapeCast S1024x128 v h2) h3) (lift_ix h4 r l g)).trans
    (reshape_ix v h2 h3 g r l)

end KFold

theorem pay11_apply (v : FVec Ideal S131072 .f32) (xo : Vec Ideal S8x128 .f32) (r : Fin 8) (l : Fin 128) :
    k0_pay11 v xo (ix2 r l) = xo (ix2 r l) + ∑ g : Fin 128, v (ix1 (laneIx g r l)) :=
  KFold.fold_apply v xo _ _ _ _ _ _ r l
theorem pay12_apply (v : FVec Ideal S131072 .f32) (xo : Vec Ideal S8x128 .f32) (r : Fin 8) (l : Fin 128) :
    k0_pay12 v xo (ix2 r l) = xo (ix2 r l) + ∑ g : Fin 128, v (ix1 (laneIx g r l)) :=
  KFold.fold_apply v xo _ _ _ _ _ _ r l
theorem pay13_apply (v : FVec Ideal S131072 .f32) (xo : Vec Ideal S8x128 .f32) (r : Fin 8) (l : Fin 128) :
    k0_pay13 v xo (ix2 r l) = xo (ix2 r l) + ∑ g : Fin 128, v (ix1 (laneIx g r l)) :=
  KFold.fold_apply v xo _ _ _ _ _ _ r l
theorem pay14_apply (v39 v41 v43 : IVec S131072 1) (xo : Vec Ideal S8x128 .f32) (r : Fin 8) (l : Fin 128) :
    k0_pay14 v39 v41 v43 xo (ix2 r l) = xo (ix2 r l) + ∑ g : Fin 128, trVec (F := Ideal) v39 v41 v43 (ix1 (laneIx g r l)) :=
  KFold.fold_apply (trVec (F := Ideal) v39 v41 v43) xo _ _ _ _ _ _ r l

end Cert.KernelIdeal.KVal

end
-- ==== Proof.SumRows.lean ====
/-
  Sums over all 8388608 rows, laid out as the kernel visits them: core k (2), step i (32), group g (128), sublane r (8),
  lane l (128) is row ((32 k + i) 131072) + 1024 g + 128 r + l, and every row is visited exactly once.
-/
import Mathlib.Algebra.BigOperators.Fin
import Mathlib.Data.EReal.Basic

namespace TradeLoss

/-- The row the kernel visits at core k, step i, group g, sublane r, lane l. -/
def visit (k : Fin 2) (i : Fin 32) (g : Fin 128) (r : Fin 8) (l : Fin 128) : Fin 8388608 :=
  ⟨(32 * k.val + i.val) * 131072 + (g.val * 1024 + r.val * 128 + l.val), by
    have := k.isLt; have := i.isLt; have := g.isLt; have := r.isLt; have := l.isLt; omega⟩

/-- A sum over `Fin (m * n)` is a double sum over the two mixed-radix digits (high digit `a`, low digit `b`,
    value `b + n * a`). -/
private theorem sum_digits {M : Type*} [AddCommMonoid M] (m n : ℕ) (f : Fin (m * n) → M) :
    ∑ j : Fin (m * n), f j = ∑ a : Fin m, ∑ b : Fin n, f (finProdFinEquiv (a, b)) := by
  rw [← finProdFinEquiv.sum_comp, Fintype.sum_prod_type]

/-- The five mixed-radix digits (radices 2, 32, 128, 8, 128, most significant first) of a visited row are
    its core, step, group, sublane and lane. -/
private theorem digits_eq_visit (k : Fin 2) (i : Fin 32) (g : Fin 128) (r : Fin 8) (l : Fin 128) :
    Fin.cast (by norm_num : 2 * 32 * 128 * 8 * 128 = 8388608)
      (finProdFinEquiv (finProdFinEquiv (finProdFinEquiv (finProdFinEquiv (k, i), g), r), l)) =
      visit k i g r l := by
  apply Fin.ext
  have := k.isLt; have := i.isLt; have := g.isLt; have := r.isLt; have := l.isLt
  simp only [visit, finProdFinEquiv, Equiv.coe_fn_mk, Fin.coe_cast]
  omega

/-- Summing in the kernel's order (per core and block entry: steps, then groups) is summing over all rows. -/
theorem sum_visit {M : Type*} [AddCommMonoid M] (x : Fin 8388608 → M) :
    ∑ k : Fin 2, ∑ r : Fin 8, ∑ l : Fin 128, ∑ i : Fin 32, ∑ g : Fin 128, x (visit k i g r l) = ∑ j : Fin 8388608, x j := by
  have hN : 2 * 32 * 128 * 8 * 128 = 8388608 := by norm_num
  -- all rows, read off by their five digits in the order core, step, group, sublane, lane
  have h1 : ∑ j : Fin 8388608, x j =
      ∑ k : Fin 2, ∑ i : Fin 32, ∑ g : Fin 128, ∑ r : Fin 8, ∑ l : Fin 128, x (visit k i g r l) := by
    rw [← (finCongr hN).sum_comp]
    rw [sum_digits, sum_digits, sum_digits, sum_digits]
    refine Finset.sum_congr rfl fun k _ => Finset.sum_congr rfl fun i _ => Finset.sum_congr rfl fun g _ =>
      Finset.sum_congr rfl fun r _ => Finset.sum_congr rfl fun l _ => ?_
    exact congrArg x (digits_eq_visit k i g r l)
  rw [h1]
  refine Finset.sum_congr rfl fun k _ => ?_
  -- move the sublane and lane sums in front of the step and group sums
  calc ∑ r : Fin 8, ∑ l : Fin 128, ∑ i : Fin 32, ∑ g : Fin 128, x (visit k i g r l)
      = ∑ r : Fin 8, ∑ i : Fin 32, ∑ l : Fin 128, ∑ g : Fin 128, x (visit k i g r l) :=
        Finset.sum_congr rfl fun r _ => Finset.sum_comm
    _ = ∑ r : Fin 8, ∑ i : Fin 32, ∑ g : Fin 128, ∑ l : Fin 128, x (visit k i g r l) :=
        Finset.sum_congr rfl fun r _ => Finset.sum_congr rfl fun i _ => Finset.sum_comm
    _ = ∑ i : Fin 32, ∑ r : Fin 8, ∑ g : Fin 128, ∑ l : Fin 128, x (visit k i g r l) := Finset.sum_comm
    _ = ∑ i : Fin 32, ∑ g : Fin 128, ∑ r : Fin 8, ∑ l : Fin 128, x (visit k i g r l) :=
        Finset.sum_congr rfl fun i _ => Finset.sum_comm

end TradeLoss
-- ==== Proof.KAcc.lean ====
/-
  The output arrays over the extended reals, entry by entry: row 8 k + r, lane l of each array is the sum over core k's 32
  steps i and the 128 groups g of the loss's row function at the row the kernel visits there.
-/
import proofs.«417023_j44762149159049_3_alg».proof.Proof.KFold
import proofs.«417023_j44762149159049_3_alg».proof.Proof.SumRows

noncomputable section

namespace Cert.KernelIdeal.KVal

open Idealize.ShloMosaic Idealize.ShloMosaic.TcCoe Idealize.SL.Sem
open Idealize.ShloMosaic.Pipeline (Dat)
open Cert.KernelIdeal Cert.KernelIdeal.Gen
open Idealize.ShloMosaic.ValueIdx

variable (m : (ℓ : Loc nD τ sig) → Buf (Elt Ideal) ℓ)

/-- Row 8 k + r of a [16,128] array. -/
def outRow (k : Fin 2) (r : Fin 8) : Fin 16 := ⟨8 * k.val + r.val, by have := k.isLt; have := r.isLt; omega⟩

namespace AccSum

/-- A row function read at a natural number: the row's value below the row count, zero from there on. -/
def rowAt (x : Fin 8388608 → EReal) (j : ℕ) : EReal := if h : j < 8388608 then x ⟨j, h⟩ else 0

/-- Read at row 131072 a + 1024 g + 128 r + l with a the point t, it is the row function at that row of point t's tile. -/
theorem rowAt_tile (x : Fin 8388608 → EReal) (t : Fin cfg0.N) (g : Fin 128) (r : Fin 8) (l : Fin 128) (a : ℕ)
    (ha : a = t.val) :
    rowAt x (a * 131072 + (g.val * 1024 + r.val * 128 + l.val)) = x (rowIx t (laneIx g r l)) := by
  subst ha
  have hlt : t.val * 131072 + (g.val * 1024 + r.val * 128 + l.val) < 8388608 := (rowIx t (laneIx g r l)).isLt
  unfold rowAt
  rw [dif_pos hlt]
  rfl

/-- The zero block's entries are zero. -/
theorem zero8_apply (r : Fin 8) (l : Fin 128) : (zero8 (F := Ideal)) (ix2 r l) = (0 : EReal) :=
  Ideal.ofBits_zero_f32

/-- The running block in closed form: after point n the entry (r, l) holds the sum, over the points of n's core up to
    n and the 128 groups, of the row function at the rows those points' tiles hold there. -/
theorem acc_closed (step : Fin cfg0.N → Vec Ideal S8x128 .f32 → Vec Ideal S8x128 .f32) (x : Fin 8388608 → EReal)
    (hstep : ∀ t xo r l, step t xo (ix2 r l) = xo (ix2 r l) + ∑ g : Fin 128, x (rowIx t (laneIx g r l)))
    (r : Fin 8) (l : Fin 128) :
    ∀ (n : ℕ) (h : n < cfg0.N), acc step n h (ix2 r l)
      = ∑ i ∈ Finset.range (n % 32 + 1), ∑ g : Fin 128,
          rowAt x ((n - n % 32 + i) * 131072 + (g.val * 1024 + r.val * 128 + l.val)) := by
  intro n
  induction n with
  | zero =>
    intro h
    show step ⟨0, h⟩ zero8 (ix2 r l) = _
    rw [hstep, zero8_apply, zero_add]
    show _ = ∑ i ∈ Finset.range 1, _
    rw [Finset.sum_range_one]
    refine Finset.sum_congr rfl fun g _ => ?_
    exact (rowAt_tile x ⟨0, h⟩ g r l _ (by simp)).symm
  | succ n ih =>
    intro h
    have ih' := ih (Nat.lt_of_succ_lt h)
    show (if (n + 1) % 32 = 0 then step ⟨n + 1, h⟩ zero8 else step ⟨n + 1, h⟩ (acc step n (Nat.lt_of_succ_lt h))) (ix2 r l) = _
    by_cases h0 : (n + 1) % 32 = 0
    · rw [if_pos h0, hstep, zero8_apply, zero_add, h0]
      show _ = ∑ i ∈ Finset.range 1, _
      rw [Finset.sum_range_one]
      refine Finset.sum_congr rfl fun g _ => ?_
      exact (rowAt_tile x ⟨n + 1, h⟩ g r l _ (by simp)).symm
    · rw [if_neg h0, hstep, ih']
      have h1 : (n + 1) % 32 = n % 32 + 1 := by omega
      have h2 : n + 1 - (n % 32 + 1) = n - n % 32 := by omega
      rw [h1, h2, Finset.sum_range_succ _ (n % 32 + 1)]
      congr 1
      refine Finset.sum_congr rfl fun g _ => ?_
      exact (rowAt_tile x ⟨n + 1, h⟩ g r l _ (by show n - n % 32 + (n % 32 + 1) = n + 1; omega)).symm

/-- At a core's last point the closed form is the sum over the core's 32 steps and the 128 groups of the row function at
    the rows the kernel visits. -/
theorem outArr_apply (step : Fin cfg0.N → Vec Ideal S8x128 .f32 → Vec Ideal S8x128 .f32) (x : Fin 8388608 → EReal)
    (hstep : ∀ t xo r l, step t xo (ix2 r l) = xo (ix2 r l) + ∑ g : Fin 128, x (rowIx t (laneIx g r l)))
    (k : Fin 2) (r : Fin 8) (l : Fin 128) :
    outArr step (ix2 (outRow k r) l) = ∑ i : Fin 32, ∑ g : Fin 128, x (TradeLoss.visit k i g r l) := by
  have hk : coreOf (ix2 (outRow k r) l) = k := by
    apply Fin.ext
    show (8 * k.val + r.val) / 8 = k.val
    have := r.isLt; omega
  have hr : rowOf (ix2 (outRow k r) l) = r := by
    apply Fin.ext
    show (8 * k.val + r.val) % 8 = r.val
    have := r.isLt; omega
  show acc step (lastPt (coreOf (ix2 (outRow k r) l))).val (lastPt (coreOf (ix2 (outRow k r) l))).isLt
      (ix2 (rowOf (ix2 (outRow k r) l)) l) = _
  rw [hr]
  refine (acc_closed step x hstep r l _ _).trans ?_
  rw [hk]
  show ∑ i ∈ Finset.range ((32 * k.val + 31) % 32 + 1), ∑ g : Fin 128,
      rowAt x ((32 * k.val + 31 - (32 * k.val + 31) % 32 + i) * 131072 + (g.val * 1024 + r.val * 128 + l.val)) = _
  have e1 : (32 * k.val + 31) % 32 = 31 := by omega
  rw [e1, Finset.sum_range]
  refine Finset.sum_congr rfl fun i _ => Finset.sum_congr rfl fun g _ => ?_
  have hlt : (32 * k.val + 31 - 31 + i.val) * 131072 + (g.val * 1024 + r.val * 128 + l.val) < 8388608 := by
    have := k.isLt; have := i.isLt; have := g.isLt; have := r.isLt; have := l.isLt; omega
  unfold rowAt
  rw [dif_pos hlt]
  refine congrArg x (Fin.ext ?_)
  show (32 * k.val + 31 - 31 + i.val) * 131072 + (g.val * 1024 + r.val * 128 + l.val)
    = (32 * k.val + i.val) * 131072 + (g.val * 1024 + r.val * 128 + l.val)
  omega

end AccSum

open AccSum in
theorem outArr4_apply (c : Dev nD) (k : Fin 2) (r : Fin 8) (l : Fin 128) :
    outArr (step4 m c) (ix2 (outRow k r) l)
      = ∑ i : Fin 32, ∑ g : Fin 128, TradeLoss.rowCeK (m ((c.tc : Thread nD τ).loc main_arg0))
          (m ((c.tc : Thread nD τ).loc main_arg1)) (TradeLoss.visit k i g r l) := by
  refine outArr_apply (step4 m c)
    (fun j => TradeLoss.rowCeK (m ((c.tc : Thread nD τ).loc main_arg0)) (m ((c.tc : Thread nD τ).loc main_arg1)) j)
    (fun t xo r l => ?_) k r l
  refine (pay11_apply (k0_pay5 (pblk m c t) (tblk m c t)) xo r l).trans ?_
  exact congrArg (fun s => xo (ix2 r l) + s) (Finset.sum_congr rfl fun g _ => ce_apply m c t (laneIx g r l))
open AccSum in
theorem outArr5_apply (c : Dev nD) (k : Fin 2) (r : Fin 8) (l : Fin 128) :
    outArr (step5 m c) (ix2 (outRow k r) l)
      = ∑ i : Fin 32, ∑ g : Fin 128, (TradeLoss.rowCeK (m ((c.tc : Thread nD τ).loc main_arg0))
          (m ((c.tc : Thread nD τ).loc main_arg1)) (TradeLoss.visit k i g r l)
          * TradeLoss.rowAv (m ((c.tc : Thread nD τ).loc main_arg2)) (TradeLoss.visit k i g r l)) := by
  refine outArr_apply (step5 m c)
    (fun j => TradeLoss.rowCeK (m ((c.tc : Thread nD τ).loc main_arg0)) (m ((c.tc : Thread nD τ).loc main_arg1)) j
      * TradeLoss.rowAv (m ((c.tc : Thread nD τ).loc main_arg2)) j) (fun t xo r l => ?_) k r l
  refine (pay12_apply (k0_pay7 (pblk m c t) (tblk m c t) (qblk m c t)) xo r l).trans ?_
  exact congrArg (fun s => xo (ix2 r l) + s) (Finset.sum_congr rfl fun g _ => cp_apply m c t (laneIx g r l))
open AccSum in
theorem outArr6_apply (c : Dev nD) (k : Fin 2) (r : Fin 8) (l : Fin 128) :
    outArr (step6 m c) (ix2 (outRow k r) l)
      = ∑ i : Fin 32, ∑ g : Fin 128, TradeLoss.rowAv (m ((c.tc : Thread nD τ).loc main_arg2)) (TradeLoss.visit k i g r l) := by
  refine outArr_apply (step6 m c) (fun j => TradeLoss.rowAv (m ((c.tc : Thread nD τ).loc main_arg2)) j)
    (fun t xo r l => ?_) k r l
  refine (pay13_apply (k0_pay6 (qblk m c t)) xo r l).trans ?_
  exact congrArg (fun s => xo (ix2 r l) + s) (Finset.sum_congr rfl fun g _ => av_apply m c t (laneIx g r l))
open AccSum in
theorem outArr7_apply (c : Dev nD) (k : Fin 2) (r : Fin 8) (l : Fin 128) :
    outArr (step7 m c) (ix2 (outRow k r) l)
      = ∑ i : Fin 32, ∑ g : Fin 128, TradeLoss.rowTr (m ((c.tc : Thread nD τ).loc main_arg1))
          (m ((c.tc : Thread nD τ).loc main_arg3)) (TradeLoss.visit k i g r l) := by
  refine outArr_apply (step7 m c)
    (fun j => TradeLoss.rowTr (m ((c.tc : Thread nD τ).loc main_arg1)) (m ((c.tc : Thread nD τ).loc main_arg3)) j)
    (fun t xo r l => ?_) k r l
  refine (pay14_apply (k0_pay8 (tblk m c t) (rblk m c t)) (k0_pay9 (rblk m c t)) (k0_pay10 (tblk m c t)) xo r l).trans ?_
  exact congrArg (fun s => xo (ix2 r l) + s) (Finset.sum_congr rfl fun g _ => tr_apply m c t (laneIx g r l))

end Cert.KernelIdeal.KVal

end
-- ==== Proof.KPieces.lean ====
/-
  What each control case of the body leaves in the four output blocks, and, by induction over the grid points, that
  the blocks after point n are the running blocks `acc`.
-/
import proofs.«417023_j44762149159049_3_alg».proof.Proof.KDefs
import Idealize.ShloMosaic.Lib.Pipeline.Value

noncomputable section

namespace Cert.KernelIdeal.KVal

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

namespace KPieces

/-- The zero offsets of a whole-block access, rank two and rank one. -/
theorem hz : (![0, 0] : Fin 2 → Nat) = fun _ => 0 := funext fun a => by
  match a with
  | ⟨0, _⟩ => rfl
  | ⟨1, _⟩ => rfl

theorem hz1 : (![0] : Fin 1 → Nat) = fun _ => 0 := funext fun a => by
  match a with
  | ⟨0, _⟩ => rfl

/-- The four blocks a core's first point stores before it folds are the zero block. -/
theorem pay1_zero : (k0_pay1 : Vec F S8x128 .f32) = zero8 := rfl
theorem pay2_zero : (k0_pay2 : Vec F S8x128 .f32) = zero8 := rfl
theorem pay3_zero : (k0_pay3 : Vec F S8x128 .f32) = zero8 := rfl
theorem pay4_zero : (k0_pay4 : Vec F S8x128 .f32) = zero8 := rfl

/-- A core's first point (case A) stores the zero block in output 4, reads it back, and leaves zero plus the fold:
    the cross entropies of the point's rows, folded. -/
theorem pieceA4 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i)
    (x0 : Vec F S3x131072 .f32) (x1 : Vec F S131072 .i32) (x2 : Vec F S131072 .f32) (x3 : Vec F S131072 .f32) :
    out0_A_4 c i arg2 harg2 arg3 harg3 arg4 harg4 arg5 harg5 arg6 harg6 arg7 harg7 arg8 harg8 arg9 harg9 hc0 x0 x1 x2 x3 = k0_pay11 (k0_pay5 x0 x1) zero8 := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S8x128) hz, View.readCov_unit_zero (S := S8x128) _ hz]
  simp only [View.readAt_eq_ld, harg2.read_unread, harg3.read_unread, View.ld_unit_zero (S := S3x131072) hz,
    View.ld_unit_zero (S := S131072) hz1, pay1_zero]

/-- A core's first point (case A) stores the zero block in output 5, reads it back, and leaves zero plus the fold:
    the cross entropies times the |price change|s, folded. -/
theorem pieceA5 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i)
    (x0 : Vec F S3x131072 .f32) (x1 : Vec F S131072 .i32) (x2 : Vec F S131072 .f32) (x3 : Vec F S131072 .f32) :
    out0_A_5 c i arg2 harg2 arg3 harg3 arg4 harg4 arg5 harg5 arg6 harg6 arg7 harg7 arg8 harg8 arg9 harg9 hc0 x0 x1 x2 x3 = k0_pay12 (k0_pay7 x0 x1 x2) zero8 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, View.ld_unit_zero (S := S3x131072) hz,
    View.ld_unit_zero (S := S131072) hz1, pay2_zero]

/-- A core's first point (case A) stores the zero block in output 6, reads it back, and leaves zero plus the fold:
    the |price change|s, folded. -/
theorem pieceA6 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i)
    (x0 : Vec F S3x131072 .f32) (x1 : Vec F S131072 .i32) (x2 : Vec F S131072 .f32) (x3 : Vec F S131072 .f32) :
    out0_A_6 c i arg2 harg2 arg3 harg3 arg4 harg4 arg5 harg5 arg6 harg6 arg7 harg7 arg8 harg8 arg9 harg9 hc0 x0 x1 x2 x3 = k0_pay13 (k0_pay6 x2) zero8 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S8x128) hz, View.readCov_unit_zero (S := S8x128) _ hz]
  simp only [View.readAt_eq_ld, harg4.read_unread, View.ld_unit_zero (S := S3x131072) hz,
    View.ld_unit_zero (S := S131072) hz1, pay3_zero]

/-- A core's first point (case A) stores the zero block in output 7, reads it back, and leaves zero plus the fold:
    the trend terms, folded. -/
theorem pieceA7 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i)
    (x0 : Vec F S3x131072 .f32) (x1 : Vec F S131072 .i32) (x2 : Vec F S131072 .f32) (x3 : Vec F S131072 .f32) :
    out0_A_7 c i arg2 harg2 arg3 harg3 arg4 harg4 arg5 harg5 arg6 harg6 arg7 harg7 arg8 harg8 arg9 harg9 hc0 x0 x1 x2 x3 = k0_pay14 (k0_pay8 x1 x3) (k0_pay9 x3) (k0_pay10 x1) zero8 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S8x128) hz, View.readCov_unit_zero (S := S8x128) _ hz]
  simp only [View.readAt_eq_ld, harg3.read_unread, harg5.read_unread, View.ld_unit_zero (S := S3x131072) hz,
    View.ld_unit_zero (S := S131072) hz1, pay4_zero]

/-- Any other point (case B) leaves in output 4 the block it found there plus the fold: the cross entropies of the point's rows, folded. -/
theorem pieceB4 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i)
    (x0 : Vec F S3x131072 .f32) (x1 : Vec F S131072 .i32) (x2 : Vec F S131072 .f32) (x3 : Vec F S131072 .f32) (xo4 : Vec F S8x128 .f32) (xo5 : Vec F S8x128 .f32) (xo6 : Vec F S8x128 .f32) (xo7 : Vec F S8x128 .f32) :
    out0_B_4 c i arg2 harg2 arg3 harg3 arg4 harg4 arg5 harg5 arg6 harg6 arg7 harg7 arg8 harg8 arg9 harg9 hc0 x0 x1 x2 x3 xo4 xo5 xo6 xo7 = k0_pay11 (k0_pay5 x0 x1) xo4 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S8x128) hz]
  simp only [View.readAt_eq_ld, harg2.read_unread, harg3.read_unread, harg6.read_unread, View.ld_unit_zero (S := S3x131072) hz,
    View.ld_unit_zero (S := S131072) hz1, View.ld_unit_zero (S := S8x128) hz]

/-- Any other point (case B) leaves in output 5 the block it found there plus the fold: the cross entropies times the |price change|s, folded. -/
theorem pieceB5 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i)
    (x0 : Vec F S3x131072 .f32) (x1 : Vec F S131072 .i32) (x2 : Vec F S131072 .f32) (x3 : Vec F S131072 .f32) (xo4 : Vec F S8x128 .f32) (xo5 : Vec F S8x128 .f32) (xo6 : Vec F S8x128 .f32) (xo7 : Vec F S8x128 .f32) :
    out0_B_5 c i arg2 harg2 arg3 harg3 arg4 harg4 arg5 harg5 arg6 harg6 arg7 harg7 arg8 harg8 arg9 harg9 hc0 x0 x1 x2 x3 xo4 xo5 xo6 xo7 = k0_pay12 (k0_pay7 x0 x1 x2) xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S8x128) hz]
  simp only [View.readAt_eq_ld, harg2.read_unread, harg3.read_unread, harg4.read_unread, harg7.read_unread, View.ld_unit_zero (S := S3x131072) hz,
    View.ld_unit_zero (S := S131072) hz1, View.ld_unit_zero (S := S8x128) hz]

/-- Any other point (case B) leaves in output 6 the block it found there plus the fold: the |price change|s, folded. -/
theorem pieceB6 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i)
    (x0 : Vec F S3x131072 .f32) (x1 : Vec F S131072 .i32) (x2 : Vec F S131072 .f32) (x3 : Vec F S131072 .f32) (xo4 : Vec F S8x128 .f32) (xo5 : Vec F S8x128 .f32) (xo6 : Vec F S8x128 .f32) (xo7 : Vec F S8x128 .f32) :
    out0_B_6 c i arg2 harg2 arg3 harg3 arg4 harg4 arg5 harg5 arg6 harg6 arg7 harg7 arg8 harg8 arg9 harg9 hc0 x0 x1 x2 x3 xo4 xo5 xo6 xo7 = k0_pay13 (k0_pay6 x2) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S8x128) hz]
  simp only [View.readAt_eq_ld, harg4.read_unread, harg8.read_unread, View.ld_unit_zero (S := S3x131072) hz,
    View.ld_unit_zero (S := S131072) hz1, View.ld_unit_zero (S := S8x128) hz]

/-- Any other point (case B) leaves in output 7 the block it found there plus the fold: the trend terms, folded. -/
theorem pieceB7 (c : Dev nD) (i : grid0.Coords) (arg2 : Memref sig .tc .vmem S3x131072 .f32) (harg2 : arg2.IsWhole) (arg3 : Memref sig .tc .vmem S131072 .i32) (harg3 : arg3.IsWhole) (arg4 : Memref sig .tc .vmem S131072 .f32) (harg4 : arg4.IsWhole) (arg5 : Memref sig .tc .vmem S131072 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i)
    (x0 : Vec F S3x131072 .f32) (x1 : Vec F S131072 .i32) (x2 : Vec F S131072 .f32) (x3 : Vec F S131072 .f32) (xo4 : Vec F S8x128 .f32) (xo5 : Vec F S8x128 .f32) (xo6 : Vec F S8x128 .f32) (xo7 : Vec F S8x128 .f32) :
    out0_B_7 c i arg2 harg2 arg3 harg3 arg4 harg4 arg5 harg5 arg6 harg6 arg7 harg7 arg8 harg8 arg9 harg9 hc0 x0 x1 x2 x3 xo4 xo5 xo6 xo7 = k0_pay14 (k0_pay8 x1 x3) (k0_pay9 x3) (k0_pay10 x1) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 xo4 xo5 xo6 xo7)]
  unfold kernelRun0_B
  dsimp only
  sl_unfold_words
  rw [View.canon_unit_zero (S := S8x128) hz]
  simp only [View.readAt_eq_ld, harg3.read_unread, harg5.read_unread, harg9.read_unread, View.ld_unit_zero (S := S3x131072) hz,
    View.ld_unit_zero (S := S131072) hz1, View.ld_unit_zero (S := S8x128) hz]

/-- Case A at point t, the four outputs together: each is its step from the zero block. -/
theorem ptA (c : Dev nD) (t : Fin cfg0.N) (h0 : t.val % 32 = 0) :
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t))
    = (step4 m c t zero8, step5 m c t zero8, step6 m c t zero8, step7 m c t zero8) := by
  rw [pieceA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
    pieceA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
    pieceA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
    pieceA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t)]
  rfl

/-- Case B at point t, the four outputs together: each is its step from the block it was given. -/
theorem ptB (c : Dev nD) (t : Fin cfg0.N) (h0 : ¬t.val % 32 = 0) (o4 o5 o6 o7 : Vec F S8x128 .f32) :
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7)
    = (step4 m c t o4, step5 m c t o5, step6 m c t o6, step7 m c t o7) := by
  rw [pieceB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7,
    pieceB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7,
    pieceB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7,
    pieceB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) o4 o5 o6 o7]
  rfl

/-- One point of the induction: the blocks after point t are the running blocks, given that those after the point
    before are (used only when t is not a core's first point). -/
theorem outsAt_pt (c : Dev nD) (t : Fin cfg0.N)
    (ih : ¬t.val % 32 = 0 → outsAt0 m c (t.val - 1) (Nat.lt_of_le_of_lt (Nat.sub_le _ _) t.isLt)
      = (acc (step4 m c) (t.val - 1) (Nat.lt_of_le_of_lt (Nat.sub_le _ _) t.isLt),
         acc (step5 m c) (t.val - 1) (Nat.lt_of_le_of_lt (Nat.sub_le _ _) t.isLt),
         acc (step6 m c) (t.val - 1) (Nat.lt_of_le_of_lt (Nat.sub_le _ _) t.isLt),
         acc (step7 m c) (t.val - 1) (Nat.lt_of_le_of_lt (Nat.sub_le _ _) t.isLt))) :
    outsAt0 m c t.val t.isLt
      = (acc (step4 m c) t.val t.isLt, acc (step5 m c) t.val t.isLt, acc (step6 m c) t.val t.isLt,
         acc (step7 m c) t.val t.isLt) := by
  by_cases h0 : t.val % 32 = 0
  · refine (outsAt0_A m c t h0).trans ((ptA m c t h0).trans ?_)
    rw [acc_first (step4 m c) t h0, acc_first (step5 m c) t h0, acc_first (step6 m c) t h0,
      acc_first (step7 m c) t h0]
  · refine (outsAt0_B m c t h0).trans ((ptB m c t h0 _ _ _ _).trans ?_)
    rw [ih h0, acc_next (step4 m c) t h0, acc_next (step5 m c) t h0, acc_next (step6 m c) t h0,
      acc_next (step7 m c) t h0]

end KPieces

/-- After point n the four output blocks hold the four running blocks. -/
theorem outsAt_eq (c : Dev nD) : ∀ (n : ℕ) (h : n < cfg0.N),
    outsAt0 m c n h = (acc4 m c n h, acc5 m c n h, acc6 m c n h, acc7 m c n h) := by
  intro n
  induction n with
  | zero => exact fun h => KPieces.outsAt_pt m c ⟨0, h⟩ fun h0 => absurd (Nat.zero_mod 32) h0
  | succ n ih => exact fun h => KPieces.outsAt_pt m c ⟨n + 1, h⟩ fun _ => ih (Nat.lt_of_succ_lt h)

end Cert.KernelIdeal.KVal

end
-- ==== Proof.KFinal.lean ====
/-
  From the running blocks to the four output arrays after the run, and through the host operations after the
  region to the program's result.
-/
import proofs.«417023_j44762149159049_3_alg».proof.Proof.KPieces
import Idealize.ShloMosaic.Lib.Pipeline.Value
import Idealize.ShloMosaic.Lib.StableHlo.Run

noncomputable section

namespace Cert.KernelIdeal.KVal

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The host operations after the region, as one function of the four output arrays. -/
def tail (a4 a5 a6 a7 : FVec F S16x128 .f32) : FVec F S_ .f32 :=
  let s4 : FVec F S_ .f32 := Host.reduceAdd a4 (constant S_ .f32 0x00000000#32) reducesTo_S16x128_S_d0_1 h_S_
  let s5 : FVec F S_ .f32 := Host.reduceAdd a5 (constant S_ .f32 0x00000000#32) reducesTo_S16x128_S_d0_1 h_S_
  let s6 : FVec F S_ .f32 := Host.reduceAdd a6 (constant S_ .f32 0x00000000#32) reducesTo_S16x128_S_d0_1 h_S_
  let s7 : FVec F S_ .f32 := Host.reduceAdd a7 (constant S_ .f32 0x00000000#32) reducesTo_S16x128_S_d0_1 h_S_
  let d : FVec F S_ .f32 := addf (Host.divf s6 (constant S_ .f32 0x4B000000#32)) (constant S_ .f32 0x322BCC77#32)
  addf (addf (mulf (constant S_ .f32 0x3F59999A#32) (Host.divf (Host.divf s5 (constant S_ .f32 0x4B000000#32)) d))
      (mulf (constant S_ .f32 0x3E19999A#32) (Host.divf s4 (constant S_ .f32 0x4B000000#32))))
    (mulf (constant S_ .f32 0x3DCCCCCD#32) (Host.divf s7 (constant S_ .f32 0x4B000000#32)))

/-! ## From the running blocks to the arrays

The auxiliary statements of this module are kept in the namespace `Final`. -/

namespace Final

/-- An entry of `outArr` in the eight rows of the core whose last point is t (row t / 32 * 8 + j₀, lane j₁) is entry
    (j₀, j₁) of the running block after t. -/
theorem outArr_at (step : Fin cfg0.N → Vec F S8x128 .f32 → Vec F S8x128 .f32) (t : Fin cfg0.N) (h31 : t.val % 32 = 31)
    (i : S16x128.Idx) (j : S8x128.Idx) (h0 : (i 0).val = t.val / 32 * 8 + (j 0).val) (h1 : (i 1).val = (j 1).val) :
    outArr step i = acc step t.val t.isLt j := by
  have hj : (j 0).val < 8 := (j 0).isLt
  have hl : lastPt (coreOf i) = t := Fin.ext (by show 32 * ((i 0).val / 8) + 31 = t.val; omega)
  have hr : ValueIdx.ix2 (rowOf i) (i 1) = j := by
    funext a
    match a with
    | ⟨0, _⟩ => exact Fin.ext (by show (i 0).val % 8 = (j 0).val; omega)
    | ⟨1, _⟩ => exact Fin.ext h1
  subst hl
  exact congrArg _ hr

/-! ### Output window 4 -/

/-- Its index map, decided over the grid: at point t the block is (t / 32, 0) — the core's own. -/
theorem idx4 : ∀ t : Fin cfg0.N, win0_4.index t (0 : Fin 2) = t.val / 32 ∧ win0_4.index t (1 : Fin 2) = 0 :=
  (by decide +kernel : ∀ t : Fin grid0.N, _)

/-- What a core's last point writes back is the core's eight rows of the array `outArr`: there the running block is
    the one after the core's last point, which is this point. -/
theorem flushed4_eq (c : Dev nD) (t : Fin cfg0.N) (hf : (cfg0.win 4).flush t = true) :
    (dats m 0 c).flushed 4 t = ((cfg0.win 4).blk t).view.read (Elt F) (outArr (step4 m c)) := by
  have h31 : t.val % 32 = 31 := (flush0_4 t).mp hf
  show (cfg0.win 4).cut (grid0.coords t) ((dats m 0 c).after 4 t) = _
  rw [after0_4, outsAt_eq]
  funext j
  show acc4 m c t.val t.isLt j = outArr (step4 m c) (((cfg0.win 4).blk t).view.emb j)
  obtain ⟨e0, e1⟩ := idx4 t
  refine (outArr_at (step4 m c) t h31 _ j ?_ ?_).symm
  · show win0_4.index t (0 : Fin 2) * 8 + 1 * (j 0).val = t.val / 32 * 8 + (j 0).val
    rw [e0]; omega
  · show win0_4.index t (1 : Fin 2) * 128 + 1 * (j 1).val = (j 1).val
    rw [e1]; omega

/-- An index of the array is in point t's block iff each coordinate is in the block's range on its axis. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v1_0).slice (win0_4.rect t)).set ↔ _
  rw [View.set_slice_whole, Rect.mem_set_unit]
  exact Iff.rfl

/-- Row R of the array is written back by the last point of core R / 8. -/
theorem cover4 (i : S16x128.Idx) : ∃ t : Fin cfg0.N, (cfg0.win 4).flush t = true ∧ i ∈ ((cfg0.win 4).blk t).view.set := by
  have hi0 : (i 0).val < 16 := (i 0).isLt
  have hi1 : (i 1).val < 128 := (i 1).isLt
  refine ⟨lastPt (coreOf i), (flush0_4 _).mpr (by show (32 * ((i 0).val / 8) + 31) % 32 = 31; omega), ?_⟩
  rw [mem_blk4]
  obtain ⟨e0, e1⟩ := idx4 (lastPt (coreOf i))
  have e0' : win0_4.index (lastPt (coreOf i)) (0 : Fin 2) = (i 0).val / 8 := by
    rw [e0]; show (32 * ((i 0).val / 8) + 31) / 32 = (i 0).val / 8; omega
  intro a
  match a with
  | ⟨0, _⟩ => show win0_4.index (lastPt (coreOf i)) (0 : Fin 2) * 8 ≤ (i 0).val ∧ (i 0).val < win0_4.index (lastPt (coreOf i)) (0 : Fin 2) * 8 + 8
              rw [e0']; omega
  | ⟨1, _⟩ => show win0_4.index (lastPt (coreOf i)) (1 : Fin 2) * 128 ≤ (i 1).val ∧ (i 1).val < win0_4.index (lastPt (coreOf i)) (1 : Fin 2) * 128 + 128
              rw [e1]; omega

/-! ### Output window 5 -/

/-- Its index map, decided over the grid: at point t the block is (t / 32, 0) — the core's own. -/
theorem idx5 : ∀ t : Fin cfg0.N, win0_5.index t (0 : Fin 2) = t.val / 32 ∧ win0_5.index t (1 : Fin 2) = 0 :=
  (by decide +kernel : ∀ t : Fin grid0.N, _)

/-- What a core's last point writes back is the core's eight rows of the array `outArr`: there the running block is
    the one after the core's last point, which is this point. -/
theorem flushed5_eq (c : Dev nD) (t : Fin cfg0.N) (hf : (cfg0.win 5).flush t = true) :
    (dats m 0 c).flushed 5 t = ((cfg0.win 5).blk t).view.read (Elt F) (outArr (step5 m c)) := by
  have h31 : t.val % 32 = 31 := (flush0_5 t).mp hf
  show (cfg0.win 5).cut (grid0.coords t) ((dats m 0 c).after 5 t) = _
  rw [after0_5, outsAt_eq]
  funext j
  show acc5 m c t.val t.isLt j = outArr (step5 m c) (((cfg0.win 5).blk t).view.emb j)
  obtain ⟨e0, e1⟩ := idx5 t
  refine (outArr_at (step5 m c) t h31 _ j ?_ ?_).symm
  · show win0_5.index t (0 : Fin 2) * 8 + 1 * (j 0).val = t.val / 32 * 8 + (j 0).val
    rw [e0]; omega
  · show win0_5.index t (1 : Fin 2) * 128 + 1 * (j 1).val = (j 1).val
    rw [e1]; omega

/-- An index of the array is in point t's block iff each coordinate is in the block's range on its axis. -/
theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v1_1).slice (win0_5.rect t)).set ↔ _
  rw [View.set_slice_whole, Rect.mem_set_unit]
  exact Iff.rfl

/-- Row R of the array is written back by the last point of core R / 8. -/
theorem cover5 (i : S16x128.Idx) : ∃ t : Fin cfg0.N, (cfg0.win 5).flush t = true ∧ i ∈ ((cfg0.win 5).blk t).view.set := by
  have hi0 : (i 0).val < 16 := (i 0).isLt
  have hi1 : (i 1).val < 128 := (i 1).isLt
  refine ⟨lastPt (coreOf i), (flush0_5 _).mpr (by show (32 * ((i 0).val / 8) + 31) % 32 = 31; omega), ?_⟩
  rw [mem_blk5]
  obtain ⟨e0, e1⟩ := idx5 (lastPt (coreOf i))
  have e0' : win0_5.index (lastPt (coreOf i)) (0 : Fin 2) = (i 0).val / 8 := by
    rw [e0]; show (32 * ((i 0).val / 8) + 31) / 32 = (i 0).val / 8; omega
  intro a
  match a with
  | ⟨0, _⟩ => show win0_5.index (lastPt (coreOf i)) (0 : Fin 2) * 8 ≤ (i 0).val ∧ (i 0).val < win0_5.index (lastPt (coreOf i)) (0 : Fin 2) * 8 + 8
              rw [e0']; omega
  | ⟨1, _⟩ => show win0_5.index (lastPt (coreOf i)) (1 : Fin 2) * 128 ≤ (i 1).val ∧ (i 1).val < win0_5.index (lastPt (coreOf i)) (1 : Fin 2) * 128 + 128
              rw [e1]; omega

/-! ### Output window 6 -/

/-- Its index map, decided over the grid: at point t the block is (t / 32, 0) — the core's own. -/
theorem idx6 : ∀ t : Fin cfg0.N, win0_6.index t (0 : Fin 2) = t.val / 32 ∧ win0_6.index t (1 : Fin 2) = 0 :=
  (by decide +kernel : ∀ t : Fin grid0.N, _)

/-- What a core's last point writes back is the core's eight rows of the array `outArr`: there the running block is
    the one after the core's last point, which is this point. -/
theorem flushed6_eq (c : Dev nD) (t : Fin cfg0.N) (hf : (cfg0.win 6).flush t = true) :
    (dats m 0 c).flushed 6 t = ((cfg0.win 6).blk t).view.read (Elt F) (outArr (step6 m c)) := by
  have h31 : t.val % 32 = 31 := (flush0_6 t).mp hf
  show (cfg0.win 6).cut (grid0.coords t) ((dats m 0 c).after 6 t) = _
  rw [after0_6, outsAt_eq]
  funext j
  show acc6 m c t.val t.isLt j = outArr (step6 m c) (((cfg0.win 6).blk t).view.emb j)
  obtain ⟨e0, e1⟩ := idx6 t
  refine (outArr_at (step6 m c) t h31 _ j ?_ ?_).symm
  · show win0_6.index t (0 : Fin 2) * 8 + 1 * (j 0).val = t.val / 32 * 8 + (j 0).val
    rw [e0]; omega
  · show win0_6.index t (1 : Fin 2) * 128 + 1 * (j 1).val = (j 1).val
    rw [e1]; omega

/-- An index of the array is in point t's block iff each coordinate is in the block's range on its axis. -/
theorem mem_blk6 (t : Fin cfg0.N) (i : S16x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v1_2).slice (win0_6.rect t)).set ↔ _
  rw [View.set_slice_whole, Rect.mem_set_unit]
  exact Iff.rfl

/-- Row R of the array is written back by the last point of core R / 8. -/
theorem cover6 (i : S16x128.Idx) : ∃ t : Fin cfg0.N, (cfg0.win 6).flush t = true ∧ i ∈ ((cfg0.win 6).blk t).view.set := by
  have hi0 : (i 0).val < 16 := (i 0).isLt
  have hi1 : (i 1).val < 128 := (i 1).isLt
  refine ⟨lastPt (coreOf i), (flush0_6 _).mpr (by show (32 * ((i 0).val / 8) + 31) % 32 = 31; omega), ?_⟩
  rw [mem_blk6]
  obtain ⟨e0, e1⟩ := idx6 (lastPt (coreOf i))
  have e0' : win0_6.index (lastPt (coreOf i)) (0 : Fin 2) = (i 0).val / 8 := by
    rw [e0]; show (32 * ((i 0).val / 8) + 31) / 32 = (i 0).val / 8; omega
  intro a
  match a with
  | ⟨0, _⟩ => show win0_6.index (lastPt (coreOf i)) (0 : Fin 2) * 8 ≤ (i 0).val ∧ (i 0).val < win0_6.index (lastPt (coreOf i)) (0 : Fin 2) * 8 + 8
              rw [e0']; omega
  | ⟨1, _⟩ => show win0_6.index (lastPt (coreOf i)) (1 : Fin 2) * 128 ≤ (i 1).val ∧ (i 1).val < win0_6.index (lastPt (coreOf i)) (1 : Fin 2) * 128 + 128
              rw [e1]; omega

/-! ### Output window 7 -/

/-- Its index map, decided over the grid: at point t the block is (t / 32, 0) — the core's own. -/
theorem idx7 : ∀ t : Fin cfg0.N, win0_7.index t (0 : Fin 2) = t.val / 32 ∧ win0_7.index t (1 : Fin 2) = 0 :=
  (by decide +kernel : ∀ t : Fin grid0.N, _)

/-- What a core's last point writes back is the core's eight rows of the array `outArr`: there the running block is
    the one after the core's last point, which is this point. -/
theorem flushed7_eq (c : Dev nD) (t : Fin cfg0.N) (hf : (cfg0.win 7).flush t = true) :
    (dats m 0 c).flushed 7 t = ((cfg0.win 7).blk t).view.read (Elt F) (outArr (step7 m c)) := by
  have h31 : t.val % 32 = 31 := (flush0_7 t).mp hf
  show (cfg0.win 7).cut (grid0.coords t) ((dats m 0 c).after 7 t) = _
  rw [after0_7, outsAt_eq]
  funext j
  show acc7 m c t.val t.isLt j = outArr (step7 m c) (((cfg0.win 7).blk t).view.emb j)
  obtain ⟨e0, e1⟩ := idx7 t
  refine (outArr_at (step7 m c) t h31 _ j ?_ ?_).symm
  · show win0_7.index t (0 : Fin 2) * 8 + 1 * (j 0).val = t.val / 32 * 8 + (j 0).val
    rw [e0]; omega
  · show win0_7.index t (1 : Fin 2) * 128 + 1 * (j 1).val = (j 1).val
    rw [e1]; omega

/-- An index of the array is in point t's block iff each coordinate is in the block's range on its axis. -/
theorem mem_blk7 (t : Fin cfg0.N) (i : S16x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v1_3).slice (win0_7.rect t)).set ↔ _
  rw [View.set_slice_whole, Rect.mem_set_unit]
  exact Iff.rfl

/-- Row R of the array is written back by the last point of core R / 8. -/
theorem cover7 (i : S16x128.Idx) : ∃ t : Fin cfg0.N, (cfg0.win 7).flush t = true ∧ i ∈ ((cfg0.win 7).blk t).view.set := by
  have hi0 : (i 0).val < 16 := (i 0).isLt
  have hi1 : (i 1).val < 128 := (i 1).isLt
  refine ⟨lastPt (coreOf i), (flush0_7 _).mpr (by show (32 * ((i 0).val / 8) + 31) % 32 = 31; omega), ?_⟩
  rw [mem_blk7]
  obtain ⟨e0, e1⟩ := idx7 (lastPt (coreOf i))
  have e0' : win0_7.index (lastPt (coreOf i)) (0 : Fin 2) = (i 0).val / 8 := by
    rw [e0]; show (32 * ((i 0).val / 8) + 31) / 32 = (i 0).val / 8; omega
  intro a
  match a with
  | ⟨0, _⟩ => show win0_7.index (lastPt (coreOf i)) (0 : Fin 2) * 8 ≤ (i 0).val ∧ (i 0).val < win0_7.index (lastPt (coreOf i)) (0 : Fin 2) * 8 + 8
              rw [e0']; omega
  | ⟨1, _⟩ => show win0_7.index (lastPt (coreOf i)) (1 : Fin 2) * 128 ≤ (i 1).val ∧ (i 1).val < win0_7.index (lastPt (coreOf i)) (1 : Fin 2) * 128 + 128
              rw [e1]; omega

end Final

/-! ## The four arrays after the run

Each ends holding `outArr`: the two cores' blocks tile its sixteen rows. -/

theorem final4 (c : Dev nD) : (dats m 0 c).arrAt 4 cfg0.N = outArr (step4 m c) :=
  (dats m 0 c).arrAt_eq_of_cover 4 (outArr (step4 m c)) (Final.flushed4_eq m c) Final.cover4
theorem final5 (c : Dev nD) : (dats m 0 c).arrAt 5 cfg0.N = outArr (step5 m c) :=
  (dats m 0 c).arrAt_eq_of_cover 5 (outArr (step5 m c)) (Final.flushed5_eq m c) Final.cover5
theorem final6 (c : Dev nD) : (dats m 0 c).arrAt 6 cfg0.N = outArr (step6 m c) :=
  (dats m 0 c).arrAt_eq_of_cover 6 (outArr (step6 m c)) (Final.flushed6_eq m c) Final.cover6
theorem final7 (c : Dev nD) : (dats m 0 c).arrAt 7 cfg0.N = outArr (step7 m c) :=
  (dats m 0 c).arrAt_eq_of_cover 7 (outArr (step7 m c)) (Final.flushed7_eq m c) Final.cover7

/-! ## The host operations after the region -/

/-- The program's result after the lines that follow the region: those lines read the four output arrays where the
    region left them, so the result is `tail` of the four arrays. -/
theorem Final.tail_eq (c : Dev nD) :
    Pipeline.afterTail₀ cfgs (dats m) 0 (V0 m) [hostOps1] c main_v16
      = tail (outArr (step4 m c)) (outArr (step5 m c)) (outArr (step6 m c)) (outArr (step7 m c)) := by
  have e4 : Pipeline.withArrays (cfgs 0).spec c (V0 m c) (fun w => (dats m 0 c).arrAt w (cfgs 0).N) (Proc.devRef .tc main_v1_0)
      = outArr (step4 m c) := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v1_1)
      = outArr (step5 m c) := (Pipeline.withArrays_arr spec0 launch0.win.arr_inj c _ _ 5).trans (final5 m c)
  have e6 : Pipeline.withArrays (cfgs 0).spec c (V0 m c) (fun w => (dats m 0 c).arrAt w (cfgs 0).N) (Proc.devRef .tc main_v1_2)
      = outArr (step6 m c) := (Pipeline.withArrays_arr spec0 launch0.win.arr_inj c _ _ 6).trans (final6 m c)
  have e7 : Pipeline.withArrays (cfgs 0).spec c (V0 m c) (fun w => (dats m 0 c).arrAt w (cfgs 0).N) (Proc.devRef .tc main_v1_3)
      = outArr (step7 m c) := (Pipeline.withArrays_arr spec0 launch0.win.arr_inj c _ _ 7).trans (final7 m c)
  unfold Pipeline.afterTail₀
  show StableHlo.after hostOps1 _ (Proc.devRef .tc main_v16) = _
  after_results_simp
  rw [e4, e5, e6, e7]
  rfl

/-- The run, read: the result at the host tail of the four arrays, the arguments unchanged. -/
theorem run : θ_run defs (onTc (τ := τ) (main (F := F))) ⟨m, fun _ => 0, ρ⟩ fun r => ∀ c : Dev nD,
      r.2.mem ((c.tc : Thread nD τ).loc main_v16)
        = tail (outArr (step4 m c)) (outArr (step5 m c)) (outArr (step6 m c)) (outArr (step7 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (Final.tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KVal

end
-- ==== Proof.KMath.lean ====
/-
  The kernel's result over the extended reals is the loss `TradeLoss.kTotal` of the argument arrays: each output array's
  entries are sums over a core's 32 steps and 128 groups of the row functions, the host's sums over the four arrays
  are then sums over all rows, and the scalar operations after them are `kTotal`'s.
-/
import proofs.«417023_j44762149159049_3_alg».proof.Proof.KAcc
import proofs.«417023_j44762149159049_3_alg».proof.Proof.KFinal
import proofs.«417023_j44762149159049_3_alg».proof.Proof.SumRows
import Idealize.ShloMosaic.PureOps.Ideal.Laws

noncomputable section

namespace Cert.KernelIdeal.KVal

open Idealize.ShloMosaic Idealize.ShloMosaic.TcCoe Idealize.SL.Sem
open Idealize.ShloMosaic.Pipeline (Dat)
open Cert.KernelIdeal Cert.KernelIdeal.Gen
open Idealize.ShloMosaic.ValueIdx

variable (m : (ℓ : Loc nD τ sig) → Buf (Elt Ideal) ℓ)

/-- The host's sum of a [16,128] array over both axes, started from the zero pattern, is the sum of all its entries:
    the result has rank 0, so every entry reduces to its one index, and the zero pattern is the extended real 0. -/
theorem kmath_reduce_total (a : FVec Ideal S16x128 .f32) (i : S_.Idx) :
    Host.reduceAdd a (constant S_ .f32 0x00000000#32) reducesTo_S16x128_S_d0_1 h_S_ i = ∑ j : S16x128.Idx, a j := by
  simp only [Host.reduceAdd, Ideal.hostReduceAdd_def]
  refine (Ideal.hostReduceAdd_total reducesTo_S16x128_S_d0_1 (fun b => b.elim0) a _ i).trans ?_
  show Ideal.ofBits .f32 0x00000000#32 + _ = _
  rw [Ideal.ofBits_zero_f32, zero_add]

/-- A sum over the 16 rows, split as row 8 k + r (k the core, r the sublane). -/
theorem kmath_sum_rows16 {M : Type*} [AddCommMonoid M] (f : Fin 16 → M) :
    ∑ R : Fin 16, f R = ∑ k : Fin 2, ∑ r : Fin 8, f (outRow k r) := by
  rw [← (finProdFinEquiv (m := 2) (n := 8)).sum_comp, Fintype.sum_prod_type]
  refine Finset.sum_congr rfl fun k _ => Finset.sum_congr rfl fun r _ => congrArg f (Fin.ext ?_)
  simp [outRow, finProdFinEquiv]
  omega

/-- The sum of all entries of a [16,128] array, by core, sublane and lane. -/
theorem kmath_sum_arr (a : FVec Ideal S16x128 .f32) :
    ∑ j : S16x128.Idx, a j = ∑ k : Fin 2, ∑ r : Fin 8, ∑ l : Fin 128, a (ix2 (outRow k r) l) := by
  refine (sum_idx2 (n0 := 16) (n1 := 128) a).trans ?_
  exact kmath_sum_rows16 (fun R => ∑ l : Fin 128, a (ix2 R l))

/-- An array whose entry at row 8 k + r, lane l is the sum over steps i and groups g of x at the visited row sums,
    over all its entries, to the sum of x over all rows. -/
theorem kmath_sum_visit_arr (a : FVec Ideal S16x128 .f32) (x : Fin TradeLoss.N → EReal)
    (h : ∀ (k : Fin 2) (r : Fin 8) (l : Fin 128),
      a (ix2 (outRow k r) l) = ∑ i : Fin 32, ∑ g : Fin 128, x (TradeLoss.visit k i g r l)) :
    ∑ j : S16x128.Idx, a j = ∑ j : Fin TradeLoss.N, x j := by
  rw [kmath_sum_arr]
  refine Eq.trans ?_ (TradeLoss.sum_visit x)
  exact Finset.sum_congr rfl fun k _ => Finset.sum_congr rfl fun r _ => Finset.sum_congr rfl fun l _ => h k r l

/-- The host tail of four arrays at the rank-0 index, in terms of the sums of their entries. -/
theorem kmath_tail_apply (a4 a5 a6 a7 : FVec Ideal S16x128 .f32) (i : S_.Idx) :
    tail (F := Ideal) a4 a5 a6 a7 i
      = (TradeLoss.w85 * Ideal.div (Ideal.div (∑ j : S16x128.Idx, a5 j) TradeLoss.nW)
            (Ideal.div (∑ j : S16x128.Idx, a6 j) TradeLoss.nW + TradeLoss.epsW)
          + TradeLoss.w15 * Ideal.div (∑ j : S16x128.Idx, a4 j) TradeLoss.nW)
        + TradeLoss.w10 * Ideal.div (∑ j : S16x128.Idx, a7 j) TradeLoss.nW := by
  rw [← kmath_reduce_total a4 i, ← kmath_reduce_total a5 i, ← kmath_reduce_total a6 i, ← kmath_reduce_total a7 i]
  rfl

theorem tail_eq (c : Dev nD) :
    tail (F := Ideal) (outArr (step4 m c)) (outArr (step5 m c)) (outArr (step6 m c)) (outArr (step7 m c))
      = fun _ => TradeLoss.kTotal (m ((c.tc : Thread nD τ).loc main_arg0)) (m ((c.tc : Thread nD τ).loc main_arg1))
          (m ((c.tc : Thread nD τ).loc main_arg2)) (m ((c.tc : Thread nD τ).loc main_arg3)) := by
  funext i
  have h4 := kmath_sum_visit_arr (outArr (step4 m c))
    (fun j => TradeLoss.rowCeK (m ((c.tc : Thread nD τ).loc main_arg0)) (m ((c.tc : Thread nD τ).loc main_arg1)) j)
    (outArr4_apply m c)
  have h5 := kmath_sum_visit_arr (outArr (step5 m c))
    (fun j => TradeLoss.rowCeK (m ((c.tc : Thread nD τ).loc main_arg0)) (m ((c.tc : Thread nD τ).loc main_arg1)) j
      * TradeLoss.rowAv (m ((c.tc : Thread nD τ).loc main_arg2)) j)
    (outArr5_apply m c)
  have h6 := kmath_sum_visit_arr (outArr (step6 m c))
    (fun j => TradeLoss.rowAv (m ((c.tc : Thread nD τ).loc main_arg2)) j)
    (outArr6_apply m c)
  have h7 := kmath_sum_visit_arr (outArr (step7 m c))
    (fun j => TradeLoss.rowTr (m ((c.tc : Thread nD τ).loc main_arg1)) (m ((c.tc : Thread nD τ).loc main_arg3)) j)
    (outArr7_apply m c)
  generalize outArr (step4 m c) = a4 at h4 ⊢
  generalize outArr (step5 m c) = a5 at h5 ⊢
  generalize outArr (step6 m c) = a6 at h6 ⊢
  generalize outArr (step7 m c) = a7 at h7 ⊢
  rw [kmath_tail_apply, h4, h5, h6, h7]
  rfl

end Cert.KernelIdeal.KVal

end
-- ==== Proof.RRunOps.lean ====
import proofs.«417023_j44762149159049_3_alg».proof.Proof.RefRun

noncomputable section

namespace Cert.ReferenceIdeal.RRun

open Idealize.ShloMosaic Idealize.ShloMosaic.TcCoe Idealize.SL.Sem Idealize.ShloMosaic.StableHlo
open Cert.ReferenceIdeal Cert.ReferenceIdeal.Gen

variable {F : FTy → Type} [FloatOps F]

/-- The reference's 91 host operations, in order, each over typed references. -/
abbrev opsT : List (HloOp τ sig (Elt F)) :=
  [ TRef.nullary (TRef.of (T := ⟨S_, .f32⟩) main_call0_cst) (constant S_ .f32 0xFF800000#32),
    TRef.binary (TRef.of (T := ⟨S8388608x3, .f32⟩) main_arg0) (TRef.of (T := ⟨S_, .f32⟩) main_call0_cst) (TRef.of (T := ⟨S8388608, .f32⟩) main_call0_v0) (fun x v => Host.reduce FloatOps.maximumf x v reducesTo_S8388608x3_S8388608_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8388608, .f32⟩) main_call0_v1) (broadcastInDim S8388608 ![] bcast_S_S8388608),
    TRef.binary (TRef.of (T := ⟨S8388608, .f32⟩) main_call0_v1) (TRef.of (T := ⟨S8388608, .f32⟩) main_call0_v0) (TRef.of (T := ⟨S8388608, .f32⟩) main_call0_v2) maximumf,
    TRef.unary (TRef.of (T := ⟨S8388608, .f32⟩) main_call0_v2) (TRef.of (T := ⟨S8388608x1, .f32⟩) main_call0_v3) (broadcastInDim S8388608x1 ![0] bcast_S8388608_S8388608x1_0),
    TRef.unary (TRef.of (T := ⟨S8388608x1, .f32⟩) main_call0_v3) (TRef.of (T := ⟨S8388608x3, .f32⟩) main_call0_v4) (broadcastInDim S8388608x3 ![0, 1] bcast_S8388608x1_S8388608x3_0_1),
    TRef.binary (TRef.of (T := ⟨S8388608x3, .f32⟩) main_arg0) (TRef.of (T := ⟨S8388608x3, .f32⟩) main_call0_v4) (TRef.of (T := ⟨S8388608x3, .f32⟩) main_call0_v5) subf,
    TRef.unary (TRef.of (T := ⟨S8388608x3, .f32⟩) main_call0_v5) (TRef.of (T := ⟨S8388608x3, .f32⟩) main_call0_v6) Host.exp,
    TRef.nullary (TRef.of (T := ⟨S_, .f32⟩) main_call0_cst_1) (constant S_ .f32 0x00000000#32),
    TRef.binary (TRef.of (T := ⟨S8388608x3, .f32⟩) main_call0_v6) (TRef.of (T := ⟨S_, .f32⟩) main_call0_cst_1) (TRef.of (T := ⟨S8388608, .f32⟩) main_call0_v7) (fun x v => Host.reduceAdd x v reducesTo_S8388608x3_S8388608_d1 h_S_),
    TRef.unary (TRef.of (T := ⟨S8388608, .f32⟩) main_call0_v7) (TRef.of (T := ⟨S8388608x1, .f32⟩) main_call0_v8) (broadcastInDim S8388608x1 ![0] bcast_S8388608_S8388608x1_0),
    TRef.unary (TRef.of (T := ⟨S8388608x1, .f32⟩) main_call0_v8) (TRef.of (T := ⟨S8388608x1, .f32⟩) main_call0_v9) Host.log,
    TRef.unary (TRef.of (T := ⟨S8388608x1, .f32⟩) main_call0_v9) (TRef.of (T := ⟨S8388608x3, .f32⟩) main_call0_v10) (broadcastInDim S8388608x3 ![0, 1] bcast_S8388608x1_S8388608x3_0_1),
    TRef.binary (TRef.of (T := ⟨S8388608x3, .f32⟩) main_call0_v5) (TRef.of (T := ⟨S8388608x3, .f32⟩) main_call0_v10) (TRef.of (T := ⟨S8388608x3, .f32⟩) main_v0) subf,
    TRef.unary (TRef.of (T := ⟨S8388608, .i32⟩) main_arg1) (TRef.of (T := ⟨S8388608x1, .i32⟩) main_v1) (broadcastInDim S8388608x1 ![0] bcast_S8388608_S8388608x1_0),
    TRef.nullary (TRef.of (T := ⟨S_, .i32⟩) main_call1_c) (constantI S_ 32 0#32),
    TRef.unary (TRef.of (T := ⟨S_, .i32⟩) main_call1_c) (TRef.of (T := ⟨S8388608x1, .i32⟩) main_call1_v0) (broadcastInDim S8388608x1 ![] bcast_S_S8388608x1),
    TRef.binary (TRef.of (T := ⟨S8388608x1, .i32⟩) main_v1) (TRef.of (T := ⟨S8388608x1, .i32⟩) main_call1_v0) (TRef.of (T := ⟨S8388608x1, .i1⟩) main_call1_v1) (cmpi .slt),
    TRef.nullary (TRef.of (T := ⟨S_, .i32⟩) main_call1_c_0) (constantI S_ 32 3#32),
    TRef.unary (TRef.of (T := ⟨S_, .i32⟩) main_call1_c_0) (TRef.of (T := ⟨S8388608x1, .i32⟩) main_call1_v2) (broadcastInDim S8388608x1 ![] bcast_S_S8388608x1),
    TRef.binary (TRef.of (T := ⟨S8388608x1, .i32⟩) main_v1) (TRef.of (T := ⟨S8388608x1, .i32⟩) main_call1_v2) (TRef.of (T := ⟨S8388608x1, .i32⟩) main_call1_v3) addi,
    TRef.ternary (TRef.of (T := ⟨S8388608x1, .i1⟩) main_call1_v1) (TRef.of (T := ⟨S8388608x1, .i32⟩) main_call1_v3) (TRef.of (T := ⟨S8388608x1, .i32⟩) main_v1) (TRef.of (T := ⟨S8388608x1, .i32⟩) main_call1_v4) select,
    TRef.reshape (TRef.of (T := ⟨S8388608x1, .i32⟩) main_call1_v4) (TRef.of (T := ⟨S8388608x1x1, .i32⟩) main_call1_v5) rfl shapeCasts_S8388608x1_S8388608x1x1,
    TRef.nullary (TRef.of (T := ⟨S1, .i32⟩) main_call1_c_1) (constantI S1 32 2#32),
    TRef.nullary (TRef.of (T := ⟨S_, .i32⟩) main_call1_c_2) (constantI S_ 32 0#32),
    TRef.unary (TRef.of (T := ⟨S_, .i32⟩) main_call1_c_2) (TRef.of (T := ⟨S8388608x1x1, .i32⟩) main_call1_v6) (broadcastInDim S8388608x1x1 ![] bcast_S_S8388608x1x1),
    TRef.binary (TRef.of (T := ⟨S8388608x1x1, .i32⟩) main_call1_v5) (TRef.of (T := ⟨S8388608x1x1, .i32⟩) main_call1_v6) (TRef.of (T := ⟨S8388608x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8388608x1x1, .i32⟩) main_call1_v9) (broadcastInDim S8388608x1x1 ![0, 1, 2] bcast_S1x1x1_S8388608x1x1_0_1_2),
    TRef.binary (TRef.of (T := ⟨S8388608x1x1, .i32⟩) main_call1_v5) (TRef.of (T := ⟨S8388608x1x1, .i32⟩) main_call1_v9) (TRef.of (T := ⟨S8388608x1x1, .i1⟩) main_call1_v10) (cmpi .sle),
    TRef.binary (TRef.of (T := ⟨S8388608x1x1, .i1⟩) main_call1_v7) (TRef.of (T := ⟨S8388608x1x1, .i1⟩) main_call1_v10) (TRef.of (T := ⟨S8388608x1x1, .i1⟩) main_call1_v11) andi,
    TRef.nullary (TRef.of (T := ⟨S_, .i1⟩) main_call1_c_3) (constantI S_ 1 1#1),
    TRef.binary (TRef.of (T := ⟨S8388608x1x1, .i1⟩) main_call1_v11) (TRef.of (T := ⟨S_, .i1⟩) main_call1_c_3) (TRef.of (T := ⟨S8388608x1, .i1⟩) main_call1_v12) (fun x v => Host.reduce IntOp.andi x v reducesTo_S8388608x1x1_S8388608x1_d2 h_S_),
    TRef.binary (TRef.of (T := ⟨S8388608x3, .f32⟩) main_v0) (TRef.of (T := ⟨S8388608x1x1, .i32⟩) main_call1_v5) (TRef.of (T := ⟨S8388608x1, .f32⟩) main_call1_v13) (fun x i => Host.gather gather_S8388608x3_S8388608x1x1_S8388608x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8388608x1, .f32⟩) main_call1_v14) (broadcastInDim S8388608x1 ![] bcast_S_S8388608x1),
    TRef.ternary (TRef.of (T := ⟨S8388608x1, .i1⟩) main_call1_v12) (TRef.of (T := ⟨S8388608x1, .f32⟩) main_call1_v13) (TRef.of (T := ⟨S8388608x1, .f32⟩) main_call1_v14) (TRef.of (T := ⟨S8388608x1, .f32⟩) main_v2) select,
    TRef.reshape (TRef.of (T := ⟨S8388608x1, .f32⟩) main_v2) (TRef.of (T := ⟨S8388608, .f32⟩) main_v3) rfl shapeCasts_S8388608x1_S8388608,
    TRef.unary (TRef.of (T := ⟨S8388608, .f32⟩) main_v3) (TRef.of (T := ⟨S8388608, .f32⟩) main_v4) (Host.negf),
    TRef.unary (TRef.of (T := ⟨S8388608, .f32⟩) main_arg2) (TRef.of (T := ⟨S8388608, .f32⟩) main_v5) (Host.absf),
    TRef.nullary (TRef.of (T := ⟨S_, .f32⟩) main_cst) (constant S_ .f32 0x00000000#32),
    TRef.binary (TRef.of (T := ⟨S8388608, .f32⟩) main_v5) (TRef.of (T := ⟨S_, .f32⟩) main_cst) (TRef.of (T := ⟨S_, .f32⟩) main_v6) ((fun x v => Host.reduceAdd x v reducesTo_S8388608_S_d0 h_S_)),
    TRef.nullary (TRef.of (T := ⟨S_, .f32⟩) main_cst_0) (constant S_ .f32 0x4B000000#32),
    TRef.binary (TRef.of (T := ⟨S_, .f32⟩) main_v6) (TRef.of (T := ⟨S_, .f32⟩) main_cst_0) (TRef.of (T := ⟨S_, .f32⟩) main_v7) (Host.divf),
    TRef.nullary (TRef.of (T := ⟨S_, .f32⟩) main_cst_1) (constant S_ .f32 0x322BCC77#32),
    TRef.binary (TRef.of (T := ⟨S_, .f32⟩) main_v7) (TRef.of (T := ⟨S_, .f32⟩) main_cst_1) (TRef.of (T := ⟨S_, .f32⟩) main_v8) (addf),
    TRef.unary (TRef.of (T := ⟨S_, .f32⟩) main_v8) (TRef.of (T := ⟨S8388608, .f32⟩) main_v9) (broadcastInDim S8388608 ![] bcast_S_S8388608),
    TRef.binary (TRef.of (T := ⟨S8388608, .f32⟩) main_v5) (TRef.of (T := ⟨S8388608, .f32⟩) main_v9) (TRef.of (T := ⟨S8388608, .f32⟩) main_v10) (Host.divf),
    TRef.binary (TRef.of (T := ⟨S8388608, .f32⟩) main_v4) (TRef.of (T := ⟨S8388608, .f32⟩) main_v10) (TRef.of (T := ⟨S8388608, .f32⟩) main_v11) (mulf),
    TRef.nullary (TRef.of (T := ⟨S_, .f32⟩) main_cst_2) (constant S_ .f32 0x00000000#32),
    TRef.unary (TRef.of (T := ⟨S_, .f32⟩) main_cst_2) (TRef.of (T := ⟨S8388608, .f32⟩) main_v12) (broadcastInDim S8388608 ![] bcast_S_S8388608),
    TRef.binary (TRef.of (T := ⟨S8388608, .f32⟩) main_arg3) (TRef.of (T := ⟨S8388608, .f32⟩) main_v12) (TRef.of (T := ⟨S8388608, .i1⟩) main_v13) (cmpf .ogt),
    TRef.nullary (TRef.of (T := ⟨S_, .i32⟩) main_c) (constantI S_ 32 2#32),
    TRef.unary (TRef.of (T := ⟨S_, .i32⟩) main_c) (TRef.of (T := ⟨S8388608, .i32⟩) main_v14) (broadcastInDim S8388608 ![] bcast_S_S8388608),
    TRef.binary (TRef.of (T := ⟨S8388608, .i32⟩) main_arg1) (TRef.of (T := ⟨S8388608, .i32⟩) main_v14) (TRef.of (T := ⟨S8388608, .i1⟩) main_v15) (cmpi .eq),
    TRef.binary (TRef.of (T := ⟨S8388608, .i1⟩) main_v13) (TRef.of (T := ⟨S8388608, .i1⟩) main_v15) (TRef.of (T := ⟨S8388608, .i1⟩) main_v16) (andi),
    TRef.nullary (TRef.of (T := ⟨S_, .f32⟩) main_cst_3) (constant S_ .f32 0x00000000#32),
    TRef.unary (TRef.of (T := ⟨S_, .f32⟩) main_cst_3) (TRef.of (T := ⟨S8388608, .f32⟩) main_v17) (broadcastInDim S8388608 ![] bcast_S_S8388608),
    TRef.binary (TRef.of (T := ⟨S8388608, .f32⟩) main_arg3) (TRef.of (T := ⟨S8388608, .f32⟩) main_v17) (TRef.of (T := ⟨S8388608, .i1⟩) main_v18) (cmpf .olt),
    TRef.nullary (TRef.of (T := ⟨S_, .i32⟩) main_c_4) (constantI S_ 32 0#32),
    TRef.unary (TRef.of (T := ⟨S_, .i32⟩) main_c_4) (TRef.of (T := ⟨S8388608, .i32⟩) main_v19) (broadcastInDim S8388608 ![] bcast_S_S8388608),
    TRef.binary (TRef.of (T := ⟨S8388608, .i32⟩) main_arg1) (TRef.of (T := ⟨S8388608, .i32⟩) main_v19) (TRef.of (T := ⟨S8388608, .i1⟩) main_v20) (cmpi .eq),
    TRef.binary (TRef.of (T := ⟨S8388608, .i1⟩) main_v18) (TRef.of (T := ⟨S8388608, .i1⟩) main_v20) (TRef.of (T := ⟨S8388608, .i1⟩) main_v21) (andi),
    TRef.binary (TRef.of (T := ⟨S8388608, .i1⟩) main_v16) (TRef.of (T := ⟨S8388608, .i1⟩) main_v21) (TRef.of (T := ⟨S8388608, .i1⟩) main_v22) (ori),
    TRef.nullary (TRef.of (T := ⟨S_, .f32⟩) main_cst_5) (constant S_ .f32 0xBDCCCCCD#32),
    TRef.nullary (TRef.of (T := ⟨S_, .f32⟩) main_cst_6) (constant S_ .f32 0x00000000#32),
    TRef.unary (TRef.of (T := ⟨S_, .f32⟩) main_cst_5) (TRef.of (T := ⟨S8388608, .f32⟩) main_call2_v0) (broadcastInDim S8388608 ![] bcast_S_S8388608),
    TRef.unary (TRef.of (T := ⟨S_, .f32⟩) main_cst_6) (TRef.of (T := ⟨S8388608, .f32⟩) main_call2_v1) (broadcastInDim S8388608 ![] bcast_S_S8388608),
    TRef.ternary (TRef.of (T := ⟨S8388608, .i1⟩) main_v22) (TRef.of (T := ⟨S8388608, .f32⟩) main_call2_v0) (TRef.of (T := ⟨S8388608, .f32⟩) main_call2_v1) (TRef.of (T := ⟨S8388608, .f32⟩) main_v23) select,
    TRef.unary (TRef.of (T := ⟨S8388608, .f32⟩) main_v23) (TRef.of (T := ⟨S8388608, .f32⟩) main_v24) (id),
    TRef.nullary (TRef.of (T := ⟨S_, .f32⟩) main_cst_7) (constant S_ .f32 0x00000000#32),
    TRef.binary (TRef.of (T := ⟨S8388608, .f32⟩) main_v11) (TRef.of (T := ⟨S_, .f32⟩) main_cst_7) (TRef.of (T := ⟨S_, .f32⟩) main_v25) ((fun x v => Host.reduceAdd x v reducesTo_S8388608_S_d0 h_S_)),
    TRef.nullary (TRef.of (T := ⟨S_, .f32⟩) main_cst_8) (constant S_ .f32 0x4B000000#32),
    TRef.binary (TRef.of (T := ⟨S_, .f32⟩) main_v25) (TRef.of (T := ⟨S_, .f32⟩) main_cst_8) (TRef.of (T := ⟨S_, .f32⟩) main_v26) (Host.divf),
    TRef.nullary (TRef.of (T := ⟨S_, .f32⟩) main_cst_9) (constant S_ .f32 0x3F59999A#32),
    TRef.binary (TRef.of (T := ⟨S_, .f32⟩) main_cst_9) (TRef.of (T := ⟨S_, .f32⟩) main_v26) (TRef.of (T := ⟨S_, .f32⟩) main_v27) (mulf),
    TRef.nullary (TRef.of (T := ⟨S_, .f32⟩) main_cst_10) (constant S_ .f32 0x00000000#32),
    TRef.binary (TRef.of (T := ⟨S8388608, .f32⟩) main_v4) (TRef.of (T := ⟨S_, .f32⟩) main_cst_10) (TRef.of (T := ⟨S_, .f32⟩) main_v28) ((fun x v => Host.reduceAdd x v reducesTo_S8388608_S_d0 h_S_)),
    TRef.nullary (TRef.of (T := ⟨S_, .f32⟩) main_cst_11) (constant S_ .f32 0x4B000000#32),
    TRef.binary (TRef.of (T := ⟨S_, .f32⟩) main_v28) (TRef.of (T := ⟨S_, .f32⟩) main_cst_11) (TRef.of (T := ⟨S_, .f32⟩) main_v29) (Host.divf),
    TRef.nullary (TRef.of (T := ⟨S_, .f32⟩) main_cst_12) (constant S_ .f32 0x3E19999A#32),
    TRef.binary (TRef.of (T := ⟨S_, .f32⟩) main_cst_12) (TRef.of (T := ⟨S_, .f32⟩) main_v29) (TRef.of (T := ⟨S_, .f32⟩) main_v30) (mulf),
    TRef.binary (TRef.of (T := ⟨S_, .f32⟩) main_v27) (TRef.of (T := ⟨S_, .f32⟩) main_v30) (TRef.of (T := ⟨S_, .f32⟩) main_v31) (addf),
    TRef.nullary (TRef.of (T := ⟨S_, .f32⟩) main_cst_13) (constant S_ .f32 0x00000000#32),
    TRef.binary (TRef.of (T := ⟨S8388608, .f32⟩) main_v24) (TRef.of (T := ⟨S_, .f32⟩) main_cst_13) (TRef.of (T := ⟨S_, .f32⟩) main_v32) ((fun x v => Host.reduceAdd x v reducesTo_S8388608_S_d0 h_S_)),
    TRef.nullary (TRef.of (T := ⟨S_, .f32⟩) main_cst_14) (constant S_ .f32 0x4B000000#32),
    TRef.binary (TRef.of (T := ⟨S_, .f32⟩) main_v32) (TRef.of (T := ⟨S_, .f32⟩) main_cst_14) (TRef.of (T := ⟨S_, .f32⟩) main_v33) (Host.divf),
    TRef.nullary (TRef.of (T := ⟨S_, .f32⟩) main_cst_15) (constant S_ .f32 0x3DCCCCCD#32),
    TRef.binary (TRef.of (T := ⟨S_, .f32⟩) main_cst_15) (TRef.of (T := ⟨S_, .f32⟩) main_v33) (TRef.of (T := ⟨S_, .f32⟩) main_v34) (mulf),
    TRef.binary (TRef.of (T := ⟨S_, .f32⟩) main_v31) (TRef.of (T := ⟨S_, .f32⟩) main_v34) (TRef.of (T := ⟨S_, .f32⟩) main_v35) (addf) ]

end Cert.ReferenceIdeal.RRun

end
-- ==== Proof.RRun.lean ====
/-
  The reference program's run, read stage by stage: every weakly fair execution of its 91 host operations ends with
  the result at the last stage's value of the argument arrays, and the arguments unchanged.

  The line's operations over typed references carry a transport between a buffer's type and its tensor's type around
  every function. Read through `rd`, the tensor a typed reference's buffer holds, no transport is left: an operation's
  result reads its function of its operands' readings, every other reference reads what it read before. Folding these
  equations along the line gives the result buffer's reading as one term in the arguments' readings, and that term is,
  stage for stage, the definition of `val_main_v35`.
-/
import proofs.«417023_j44762149159049_3_alg».proof.Proof.RRunOps
import proofs.«417023_j44762149159049_3_alg».proof.Proof.RefRead

noncomputable section

namespace Cert.ReferenceIdeal.RRun

open Idealize.ShloMosaic Idealize.ShloMosaic.TcCoe Idealize.SL.Sem Idealize.ShloMosaic.StableHlo
open Cert.ReferenceIdeal Cert.ReferenceIdeal.Gen
open Cert.ReferenceIdeal.ValueP Cert.ReferenceIdeal.ReadP

variable {F : FTy → Type} [FloatOps F]

/-! ## Reading a buffer at its value's type

A typed reference `x : TRef sig T` names a buffer whose contents, under a valuation `W`, are a tensor of type `T`
up to transport along `x.ty_eq`. `rd W x` is that tensor. Each operation of the line, stated over typed references,
acts on these readings with no transport left: the result reference reads the operation's function of the operands'
readings, every other reference reads what it read before. -/

section Typed

variable {T Tx Ta Tb Tc Ty Tz : BufTy}

/-- The tensor a typed reference's buffer holds under `W`. -/
def rd (W : Valuation τ sig (Elt F)) (x : TRef sig T) : T.Contents (Elt F) :=
  x.ofBuf (W (Proc.devRef .tc x.ref))

/-- Transport to the buffer's type and back is the identity. -/
theorem ofBuf_toBuf (x : TRef sig T) (v : T.Contents (Elt F)) : x.ofBuf (x.toBuf v) = v := by
  obtain ⟨r, h, _, _⟩ := x
  subst h
  rfl

theorem rd_nullary (y : TRef sig Ty) (v : Ty.Contents (Elt F)) (W : Valuation τ sig (Elt F)) :
    rd ((no_index (TRef.nullary y v : HloOp τ sig (Elt F))).result W) (no_index y) = v := by
  unfold rd
  rw [nullary_result]
  exact ofBuf_toBuf y v

theorem rd_unary (x : TRef sig Tx) (y : TRef sig Ty) (f : Tx.Contents (Elt F) → Ty.Contents (Elt F))
    (W : Valuation τ sig (Elt F)) :
    rd ((no_index (TRef.unary x y f : HloOp τ sig (Elt F))).result W) (no_index y) = f (rd W x) := by
  unfold rd
  rw [unary_result]
  exact ofBuf_toBuf y _

theorem rd_binary (a : TRef sig Ta) (b : TRef sig Tb) (y : TRef sig Ty)
    (f : Ta.Contents (Elt F) → Tb.Contents (Elt F) → Ty.Contents (Elt F)) (W : Valuation τ sig (Elt F)) :
    rd ((no_index (TRef.binary a b y f : HloOp τ sig (Elt F))).result W) (no_index y) = f (rd W a) (rd W b) := by
  unfold rd
  rw [binary_result]
  exact ofBuf_toBuf y _

theorem rd_ternary (c : TRef sig Tc) (a : TRef sig Ta) (b : TRef sig Tb) (y : TRef sig Ty)
    (f : Tc.Contents (Elt F) → Ta.Contents (Elt F) → Tb.Contents (Elt F) → Ty.Contents (Elt F))
    (W : Valuation τ sig (Elt F)) :
    rd ((no_index (TRef.ternary c a b y f : HloOp τ sig (Elt F))).result W) (no_index y)
      = f (rd W c) (rd W a) (rd W b) := by
  unfold rd
  rw [ternary_result]
  exact ofBuf_toBuf y _

/-- A reshape: the result reads the operand's reading, recast to the result's shape (and element type, along `he`). -/
theorem rd_reshape_gen (x : TRef sig Tx) (y : TRef sig Ty) (he : Tx.elt = Ty.elt) (hn : Tx.shape.ShapeCasts Ty.shape)
    (W : Valuation τ sig (Elt F)) :
    rd ((TRef.reshape x y he hn : HloOp τ sig (Elt F)).result W) y
      = fun i => he ▸ shapeCast Ty.shape (rd W x) hn i := by
  obtain ⟨rx, hx, _, _⟩ := x
  obtain ⟨ry, hy, _, _⟩ := y
  subst hx
  subst hy
  unfold rd
  rw [reshape_result]
  rfl

/-- The same between two buffers of one element type, where nothing is left of `he`. -/
theorem rd_reshape {sx sy : Shape} {e : EltTy} (x : TRef sig ⟨sx, e⟩) (y : TRef sig ⟨sy, e⟩) (hn : sx.ShapeCasts sy)
    (W : Valuation τ sig (Elt F)) :
    rd ((no_index (TRef.reshape x y rfl hn : HloOp τ sig (Elt F))).result W) (no_index y) = shapeCast sy (rd W x) hn :=
  rd_reshape_gen x y rfl hn W

theorem rd_nullary_ne (y : TRef sig Ty) (v : Ty.Contents (Elt F)) (W : Valuation τ sig (Elt F)) (z : TRef sig Tz)
    (h : z.ref ≠ y.ref) :
    rd ((no_index (TRef.nullary y v : HloOp τ sig (Elt F))).result W) (no_index z) = rd W z :=
  congrArg z.ofBuf (nullary_result_ne _ _ _ W h)

theorem rd_unary_ne (x : TRef sig Tx) (y : TRef sig Ty) (f : Tx.Contents (Elt F) → Ty.Contents (Elt F))
    (W : Valuation τ sig (Elt F)) (z : TRef sig Tz) (h : z.ref ≠ y.ref) :
    rd ((no_index (TRef.unary x y f : HloOp τ sig (Elt F))).result W) (no_index z) = rd W z :=
  congrArg z.ofBuf (unary_result_ne _ _ _ _ _ W h)

theorem rd_binary_ne (a : TRef sig Ta) (b : TRef sig Tb) (y : TRef sig Ty)
    (f : Ta.Contents (Elt F) → Tb.Contents (Elt F) → Ty.Contents (Elt F)) (W : Valuation τ sig (Elt F))
    (z : TRef sig Tz) (h : z.ref ≠ y.ref) :
    rd ((no_index (TRef.binary a b y f : HloOp τ sig (Elt F))).result W) (no_index z) = rd W z :=
  congrArg z.ofBuf (binary_result_ne _ _ _ _ _ _ _ W h)

theorem rd_ternary_ne (c : TRef sig Tc) (a : TRef sig Ta) (b : TRef sig Tb) (y : TRef sig Ty)
    (f : Tc.Contents (Elt F) → Ta.Contents (Elt F) → Tb.Contents (Elt F) → Ty.Contents (Elt F))
    (W : Valuation τ sig (Elt F)) (z : TRef sig Tz) (h : z.ref ≠ y.ref) :
    rd ((no_index (TRef.ternary c a b y f : HloOp τ sig (Elt F))).result W) (no_index z) = rd W z :=
  congrArg z.ofBuf (ternary_result_ne _ _ _ _ _ _ _ _ _ W h)

theorem rd_reshape_ne (x : TRef sig Tx) (y : TRef sig Ty) (he : Tx.elt = Ty.elt) (hn : Tx.shape.ShapeCasts Ty.shape)
    (W : Valuation τ sig (Elt F)) (z : TRef sig Tz) (h : z.ref ≠ y.ref) :
    rd ((no_index (TRef.reshape x y he hn : HloOp τ sig (Elt F))).result W) (no_index z) = rd W z :=
  congrArg z.ofBuf (reshape_result_ne _ _ _ _ _ _ W h)

end Typed

/-! ## The line, read

`ops` is the line of RefRun.lean; `opsT` is the same line with every operation stated over typed references
(an operation stated over bare references is the typed one at the buffers' own types). -/

set_option maxRecDepth 8192 in
set_option maxHeartbeats 4000000 in
theorem ops_eq : (ops : List (HloOp τ sig (Elt F))) = opsT := rfl

/-- After the whole line the result buffer reads the last stage's value of the four arguments' readings: each
    operation's result is its function of its operands' readings, which is how the stages are defined. -/
theorem after_v35 (W : Valuation τ sig (Elt F)) :
    rd (after (opsT (F := F)) W) (TRef.of (T := ⟨S_, .f32⟩) main_v35)
      = val_main_v35 (F := F) (rd W (TRef.of (T := ⟨S8388608x3, .f32⟩) main_arg0)) (rd W (TRef.of (T := ⟨S8388608, .i32⟩) main_arg1))
          (rd W (TRef.of (T := ⟨S8388608, .f32⟩) main_arg2)) (rd W (TRef.of (T := ⟨S8388608, .f32⟩) main_arg3)) := by
  simp only [after_cons, after_nil]
  simp (disch := decide) only [rd_nullary, rd_unary, rd_binary, rd_ternary, rd_reshape,
    rd_nullary_ne, rd_unary_ne, rd_binary_ne, rd_ternary_ne, rd_reshape_ne]
  simp only [val_main_call0_cst, val_main_call0_v0, val_main_call0_cst_0, val_main_call0_v1, val_main_call0_v2, val_main_call0_v3, val_main_call0_v4, val_main_call0_v5, val_main_call0_v6, val_main_call0_cst_1, val_main_call0_v7, val_main_call0_v8, val_main_call0_v9, val_main_call0_v10, val_main_v0, val_main_v1, val_main_call1_c, val_main_call1_v0, val_main_call1_v1, val_main_call1_c_0, val_main_call1_v2, val_main_call1_v3, val_main_call1_v4, val_main_call1_v5, val_main_call1_c_1, val_main_call1_c_2, val_main_call1_v6, val_main_call1_v7, val_main_call1_v8, val_main_call1_v9, val_main_call1_v10, val_main_call1_v11, val_main_call1_c_3, val_main_call1_v12, val_main_call1_v13, val_main_call1_cst, val_main_call1_v14, val_main_v2, val_main_v3, val_main_v4, val_main_v5, val_main_cst, val_main_v6, val_main_cst_0, val_main_v7, val_main_cst_1, val_main_v8, val_main_v9, val_main_v10, val_main_v11, val_main_cst_2, val_main_v12, val_main_v13, val_main_c, val_main_v14, val_main_v15, val_main_v16, val_main_cst_3, val_main_v17, val_main_v18, val_main_c_4, val_main_v19, val_main_v20, val_main_v21, val_main_v22, val_main_cst_5, val_main_cst_6, val_main_call2_v0, val_main_call2_v1, val_main_v23, val_main_v24, val_main_cst_7, val_main_v25, val_main_cst_8, val_main_v26, val_main_cst_9, val_main_v27, val_main_cst_10, val_main_v28, val_main_cst_11, val_main_v29, val_main_cst_12, val_main_v30, val_main_v31, val_main_cst_13, val_main_v32, val_main_cst_14, val_main_v33, val_main_cst_15, val_main_v34, val_main_v35]

/-- No operation of the line writes an argument's buffer. -/
theorem after_arg0 (W : Valuation τ sig (Elt F)) :
    rd (after (opsT (F := F)) W) (TRef.of (T := ⟨S8388608x3, .f32⟩) main_arg0) = rd W (TRef.of (T := ⟨S8388608x3, .f32⟩) main_arg0) := by
  simp only [after_cons, after_nil]
  simp (disch := decide) only [rd_nullary_ne, rd_unary_ne, rd_binary_ne, rd_ternary_ne, rd_reshape_ne]
theorem after_arg1 (W : Valuation τ sig (Elt F)) :
    rd (after (opsT (F := F)) W) (TRef.of (T := ⟨S8388608, .i32⟩) main_arg1) = rd W (TRef.of (T := ⟨S8388608, .i32⟩) main_arg1) := by
  simp only [after_cons, after_nil]
  simp (disch := decide) only [rd_nullary_ne, rd_unary_ne, rd_binary_ne, rd_ternary_ne, rd_reshape_ne]
theorem after_arg2 (W : Valuation τ sig (Elt F)) :
    rd (after (opsT (F := F)) W) (TRef.of (T := ⟨S8388608, .f32⟩) main_arg2) = rd W (TRef.of (T := ⟨S8388608, .f32⟩) main_arg2) := by
  simp only [after_cons, after_nil]
  simp (disch := decide) only [rd_nullary_ne, rd_unary_ne, rd_binary_ne, rd_ternary_ne, rd_reshape_ne]
theorem after_arg3 (W : Valuation τ sig (Elt F)) :
    rd (after (opsT (F := F)) W) (TRef.of (T := ⟨S8388608, .f32⟩) main_arg3) = rd W (TRef.of (T := ⟨S8388608, .f32⟩) main_arg3) := by
  simp only [after_cons, after_nil]
  simp (disch := decide) only [rd_nullary_ne, rd_unary_ne, rd_binary_ne, rd_ternary_ne, rd_reshape_ne]

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = Cert.ReferenceIdeal.ReadP.val_main_v35 (F := F) (m ((c.tc : Thread nD τ).loc main_arg0))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_)
    (run_seq scopedRefs_eq scopedSems_eq defs main (fun _ => ops) main_eq (fun _ => ops_sub) m ρ)
  have hv := after_v35 (F := F) (launchContents m c)
  have h0 := after_arg0 (F := F) (launchContents m c)
  have h1 := after_arg1 (F := F) (launchContents m c)
  have h2 := after_arg2 (F := F) (launchContents m c)
  have h3 := after_arg3 (F := F) (launchContents m c)
  rw [← ops_eq] at hv h0 h1 h2 h3
  exact ⟨(h c main_v35).trans hv, (h c main_arg0).trans h0, (h c main_arg1).trans h1,
    (h c main_arg2).trans h2, (h c main_arg3).trans h3⟩

end Cert.ReferenceIdeal.RRun

end
-- ==== Proof.RVal.lean ====
/-
  The reference's last stage over the extended reals is the loss `TradeLoss.rTotal` of the argument arrays, when every
  label is 0, 1 or 2 (then the gather along the class axis is in range and picks the label's log-probability).

  Row by row: the largest score is a maximum over the three classes started from minus infinity; the log-probability of
  class k is (p_k - M) - log (0 + sum of the three exp (p_k' - M)); a label in {0, 1, 2} is not negative, so it is kept as
  the start index, the in-range mask is all ones, and the gather (rows batched, the class axis collapsed and addressed by
  the start index, clamped into the three classes) reads the label's class; the cross entropy is the negation. The three
  scalar sums are the initial value 0 plus the sum over the rows.
-/
import proofs.«417023_j44762149159049_3_alg».proof.Proof.RefRead
import proofs.«417023_j44762149159049_3_alg».proof.Proof.Spec
import Idealize.ShloMosaic.Lib.ValueIdx
import Idealize.ShloMosaic.PureOps.Reduce
import Idealize.ShloMosaic.PureOps.Ideal.Laws

noncomputable section

namespace Cert.ReferenceIdeal.RVal

open Idealize.ShloMosaic Idealize.ShloMosaic.TcCoe Idealize.SL.Sem Idealize.ShloMosaic.StableHlo
open Cert.ReferenceIdeal Cert.ReferenceIdeal.Gen
open Idealize.ShloMosaic.ValueIdx

/-- A fold of a commutative, associative operation over three positions. -/
theorem fold_univ_fin3 {α : Type} (f : α → α → α) [Std.Commutative f] [Std.Associative f] (b : α) (g : Fin 3 → α) :
    (Finset.univ : Finset (Fin 3)).fold f b g = f b (f (f (g 0) (g 1)) (g 2)) := by
  simp only [Fin.univ_succ, Finset.fold_cons, Finset.fold_map, Finset.univ_unique, Finset.fold_singleton]
  show f (g 0) (f (g 1) (f (g 2) b)) = _
  ac_rfl

/-- Row j of the scores with class k put back on the dropped axis is (j, k). -/
theorem lift_row (h : S8388608x3.Reduces [1] S8388608) (j : Fin 8388608) (k : Fin (S8388608x3.size 1)) :
    h.lift (ix1 j) k = ix2 j (⟨k.val, k.isLt⟩ : Fin 3) := by
  funext c; apply Fin.ext
  fin_cases c <;> rfl

/-- The largest score of row j, as the reference computes it: a maximum with minus infinity of a maximum from minus infinity. -/
theorem max_row (x0 : (⟨S8388608x3, .f32⟩ : BufTy).Contents (Elt Ideal)) (j : Fin 8388608) :
    ReadP.val_main_call0_v2 (F := Ideal) x0 (ix1 j) = TradeLoss.top (x0 (ix2 j 0)) (x0 (ix2 j 1)) (x0 (ix2 j 2)) := by
  have h : S8388608x3.Reduces [1] S8388608 := by decide
  have hb : ∀ y : EReal, max (Ideal.ofBits .f32 0xFF800000#32) y = y := fun y => by simp [Ideal.ofBits, Ideal.ieee]
  have hf : (x0 ∘ h.lift (ix1 j)) = fun k : Fin 3 => x0 (ix2 j k) := funext fun k => congrArg x0 (lift_row h j k)
  have hr : ReadP.val_main_call0_v0 (F := Ideal) x0 (ix1 j)
      = Finset.fold max (Ideal.ofBits .f32 0xFF800000#32) (fun k : Fin 3 => x0 (ix2 j k)) Finset.univ := by
    refine (Host.reduce_eq_fold_single (FloatOps.maximumf (F := Ideal) (φ := .f32)) x0 (ReadP.val_main_call0_cst (F := Ideal))
      reducesTo_S8388608x3_S8388608_d1 h h_S_ (ix1 j)).trans ?_
    exact congrArg (fun f => Finset.fold max (Ideal.ofBits .f32 0xFF800000#32) f (Finset.univ : Finset (Fin 3))) hf
  rw [ReadP.val_main_call0_v2_apply, ReadP.val_main_call0_v1_apply, ReadP.val_main_call0_cst_0_apply, hr, fold_univ_fin3]
  show max (Ideal.ofBits .f32 0xFF800000#32) (max (Ideal.ofBits .f32 0xFF800000#32) _) = _
  rw [hb, hb]
  rfl

/-- The shifted score (j, k): the score less the row's largest. -/
theorem shifted_row (x0 : (⟨S8388608x3, .f32⟩ : BufTy).Contents (Elt Ideal)) (j : Fin 8388608) (k : Fin 3) :
    ReadP.val_main_call0_v5 (F := Ideal) x0 (ix2 j k)
      = x0 (ix2 j k) - TradeLoss.top (x0 (ix2 j 0)) (x0 (ix2 j 1)) (x0 (ix2 j 2)) := by
  have e : ReadP.idx_main_call0_v3 (ReadP.idx_main_call0_v4 (ix2 j k)) = ix1 j :=
    funext fun a => Fin.ext (by match a with | ⟨0, _⟩ => rfl)
  rw [ReadP.val_main_call0_v5_apply, ReadP.val_main_call0_v4_apply, ReadP.val_main_call0_v3_apply, e, max_row]
  rfl

/-- The log-probability (j, k): the shifted score less the log of the sum of the three shifted exponentials. -/
theorem logp_row (x0 : (⟨S8388608x3, .f32⟩ : BufTy).Contents (Elt Ideal)) (j : Fin 8388608) (k : Fin 3) :
    ReadP.val_main_v0 (F := Ideal) x0 (ix2 j k)
      = (x0 (ix2 j k) - TradeLoss.top (x0 (ix2 j 0)) (x0 (ix2 j 1)) (x0 (ix2 j 2)))
        - TradeLoss.lse (x0 (ix2 j 0)) (x0 (ix2 j 1)) (x0 (ix2 j 2)) := by
  have e : ReadP.idx_main_call0_v8 (ReadP.idx_main_call0_v10 (ix2 j k)) = ix1 j :=
    funext fun a => Fin.ext (by match a with | ⟨0, _⟩ => rfl)
  have e7 : ∀ k' : Fin 3, ReadP.idx_main_call0_v7 (ix1 j) k' = ix2 j k' := fun k' =>
    funext fun a => Fin.ext (by match a with | ⟨0, _⟩ => rfl | ⟨1, _⟩ => rfl)
  rw [ReadP.val_main_v0_apply, ReadP.val_main_call0_v10_apply, ReadP.val_main_call0_v9_apply, ReadP.val_main_call0_v8_apply, e,
    ReadP.val_main_call0_v7_apply, ReadP.val_main_call0_cst_1_apply, Fin.sum_univ_three, e7, e7, e7,
    ReadP.val_main_call0_v6_apply, ReadP.val_main_call0_v6_apply, ReadP.val_main_call0_v6_apply,
    shifted_row, shifted_row, shifted_row, shifted_row]
  show _ - Ideal.log (Ideal.ofBits .f32 0x00000000#32 + _) = _
  rw [Ideal.ofBits_zero_f32, zero_add]
  rfl

/-- The normalized label of row j: a label that is 0, 1 or 2 is not negative, so it is kept. -/
theorem label_row (x1 : (⟨S8388608, .i32⟩ : BufTy).Contents (Elt Ideal)) (j : Fin 8388608)
    (hj : x1 (ix1 j) = 0#32 ∨ x1 (ix1 j) = 1#32 ∨ x1 (ix1 j) = 2#32) :
    ReadP.val_main_call1_v5 (F := Ideal) x1 (ix3 j (0 : Fin 1) (0 : Fin 1)) = x1 (ix1 j) := by
  have e1 : ReadP.idx_main_v1 (ReadP.idx_main_call1_v5 (ix3 j (0 : Fin 1) (0 : Fin 1))) = ix1 j :=
    funext fun a => Fin.ext (by match a with | ⟨0, _⟩ => show ((j.val * 1 + 0) * 1 + 0) / 1 = j.val; omega)
  rw [ReadP.val_main_call1_v5_apply, ReadP.val_main_call1_v4_apply, ReadP.val_main_call1_v1_apply, ReadP.val_main_call1_v3_apply,
    ReadP.val_main_v1_apply, ReadP.val_main_call1_v0_apply, ReadP.val_main_call1_c_apply, ReadP.val_main_call1_v2_apply,
    ReadP.val_main_call1_c_0_apply, e1]
  rcases hj with h | h | h <;> rw [h] <;> rfl

/-- The unit class axis put back on (j, 0) is (j, 0, 0). -/
theorem lift_unit (h : S8388608x1x1.Reduces [2] S8388608x1) (j : Fin 8388608) (k : Fin (S8388608x1x1.size 2)) :
    h.lift (ix2 j (0 : Fin 1)) k = ix3 j (0 : Fin 1) (0 : Fin 1) := by
  funext c; apply Fin.ext
  fin_cases c
  · rfl
  · rfl
  · have hk : k.val < 1 := k.isLt
    show k.val = 0
    omega

/-- The in-range mask of row j is all ones when the label is 0, 1 or 2. -/
theorem mask_row (x1 : (⟨S8388608, .i32⟩ : BufTy).Contents (Elt Ideal)) (j : Fin 8388608)
    (hj : x1 (ix1 j) = 0#32 ∨ x1 (ix1 j) = 1#32 ∨ x1 (ix1 j) = 2#32) :
    ReadP.val_main_call1_v12 (F := Ideal) x1 (ix2 j (0 : Fin 1)) = 1#1 := by
  have h : S8388608x1x1.Reduces [2] S8388608x1 := by decide
  unfold ReadP.val_main_call1_v12
  rw [Host.reduce_eq_fold_single IntOp.andi _ _ reducesTo_S8388608x1x1_S8388608x1_d2 h h_S_]
  have hf : (ReadP.val_main_call1_v11 (F := Ideal) x1 ∘ h.lift (ix2 j (0 : Fin 1))) = fun _ : Fin 1 => 1#1 := by
    funext k
    show ReadP.val_main_call1_v11 (F := Ideal) x1 (h.lift (ix2 j (0 : Fin 1)) k) = 1#1
    rw [lift_unit h j k, ReadP.val_main_call1_v11_apply, ReadP.val_main_call1_v7_apply, ReadP.val_main_call1_v10_apply,
      label_row x1 j hj, ReadP.val_main_call1_v6_apply, ReadP.val_main_call1_c_2_apply, ReadP.val_main_call1_v9_apply,
      ReadP.val_main_call1_v8_apply, ReadP.val_main_call1_c_1_apply]
    rcases hj with h | h | h <;> rw [h] <;> rfl
  refine Eq.trans (congrArg (fun f => Finset.fold IntOp.andi (ReadP.val_main_call1_c_3 (F := Ideal) (Shape.Idx.first h_S_)) f
    (Finset.univ : Finset (Fin 1))) hf) ?_
  rfl

/-- The gather along the class axis, read at row j: the operand's row j at the class the start index names, read signed and
    clamped into the three classes. Axis 0 of the operand is a batching axis paired with the rows of the start indices, axis 1
    is collapsed and is the one the start index addresses. -/
theorem gather_row {α : Type} (x : S8388608x3.Idx → α) (idx : IVec S8388608x1x1 32) (j : Fin 8388608) :
    Host.gather gather_S8388608x3_S8388608x1x1_S8388608x1_n_1_0_0_1_2_11 x idx (ix2 j (0 : Fin 1))
      = x (ix2 j (⟨min (idx (ix3 j (0 : Fin 1) (0 : Fin 1))).toInt.toNat 2, by omega⟩ : Fin 3)) := by
  unfold Host.gather
  refine congrArg x (funext fun a => Fin.ext ?_)
  match a with
  | ⟨0, _⟩ =>
    show gather_S8388608x3_S8388608x1x1_S8388608x1_n_1_0_0_1_2_11.start (ix2 j (0 : Fin 1)) idx 0
      + gather_S8388608x3_S8388608x1x1_S8388608x1_n_1_0_0_1_2_11.batchCoord (ix2 j (0 : Fin 1)) 0
      + gather_S8388608x3_S8388608x1x1_S8388608x1_n_1_0_0_1_2_11.offCoord (ix2 j (0 : Fin 1)) 0 = j.val
    rw [GatherDims.start_batching _ _ _ 0 (List.mem_singleton.mpr rfl),
      GatherDims.offCoord_eq_zero _ _ 0 (fun h => ((GatherDims.mem_sKept _ 0).1 h).2 (List.mem_singleton.mpr rfl)),
      Nat.zero_add, Nat.add_zero]
    rfl
  | ⟨1, _⟩ =>
    show gather_S8388608x3_S8388608x1x1_S8388608x1_n_1_0_0_1_2_11.start (ix2 j (0 : Fin 1)) idx 1
      + gather_S8388608x3_S8388608x1x1_S8388608x1_n_1_0_0_1_2_11.batchCoord (ix2 j (0 : Fin 1)) 1
      + gather_S8388608x3_S8388608x1x1_S8388608x1_n_1_0_0_1_2_11.offCoord (ix2 j (0 : Fin 1)) 1
      = min (idx (ix3 j (0 : Fin 1) (0 : Fin 1))).toInt.toNat 2
    rw [GatherDims.batchCoord_eq_zero _ _ 1 (by decide),
      GatherDims.offCoord_eq_zero _ _ 1 (fun h => ((GatherDims.mem_sKept _ 1).1 h).1 (List.mem_singleton.mpr rfl)),
      Nat.add_zero]
    unfold GatherDims.start
    rw [dif_pos (show (1 : Fin 2) ∈ gather_S8388608x3_S8388608x1x1_S8388608x1_n_1_0_0_1_2_11.startIndexMap from List.mem_singleton.mpr rfl)]
    have hsi : gather_S8388608x3_S8388608x1x1_S8388608x1_n_1_0_0_1_2_11.siIdx (ix2 j (0 : Fin 1))
        ⟨List.idxOf (1 : Fin 2) gather_S8388608x3_S8388608x1x1_S8388608x1_n_1_0_0_1_2_11.startIndexMap,
          List.idxOf_lt_length_iff.2 (List.mem_singleton.mpr rfl)⟩ = ix3 j (0 : Fin 1) (0 : Fin 1) := by
      funext b; refine Fin.ext ?_
      match b with
      | ⟨0, _⟩ => rfl
      | ⟨1, _⟩ => rfl
      | ⟨2, _⟩ => rfl
    rw [hsi]
    rfl

/-- The gathered log-probability of row j: the mask is all ones, the gather reads the label's class. -/
theorem taken_row (x0 : (⟨S8388608x3, .f32⟩ : BufTy).Contents (Elt Ideal)) (x1 : (⟨S8388608, .i32⟩ : BufTy).Contents (Elt Ideal))
    (j : Fin 8388608) (hj : x1 (ix1 j) = 0#32 ∨ x1 (ix1 j) = 1#32 ∨ x1 (ix1 j) = 2#32) :
    ReadP.val_main_v2 (F := Ideal) x0 x1 (ix2 j (0 : Fin 1))
      = (TradeLoss.pick (x0 (ix2 j 0)) (x0 (ix2 j 1)) (x0 (ix2 j 2)) (x1 (ix1 j))
          - TradeLoss.top (x0 (ix2 j 0)) (x0 (ix2 j 1)) (x0 (ix2 j 2)))
        - TradeLoss.lse (x0 (ix2 j 0)) (x0 (ix2 j 1)) (x0 (ix2 j 2)) := by
  have hg : ∀ k : Fin 3, min (x1 (ix1 j)).toInt.toNat 2 = k.val →
      ReadP.val_main_call1_v13 (F := Ideal) x0 x1 (ix2 j (0 : Fin 1)) = ReadP.val_main_v0 (F := Ideal) x0 (ix2 j k) := fun k hk => by
    unfold ReadP.val_main_call1_v13
    refine (gather_row _ _ j).trans (congrArg (fun k' : Fin 3 => ReadP.val_main_v0 (F := Ideal) x0 (ix2 j k')) (Fin.ext ?_))
    show min (ReadP.val_main_call1_v5 (F := Ideal) x1 (ix3 j (0 : Fin 1) (0 : Fin 1))).toInt.toNat 2 = k.val
    rw [label_row x1 j hj, hk]
  rw [ReadP.val_main_v2_apply, mask_row x1 j hj, select_one]
  rcases hj with h | h | h
  · rw [hg 0 (by rw [h]; rfl), logp_row, h]; rfl
  · rw [hg 1 (by rw [h]; rfl), logp_row, h]; rfl
  · rw [hg 2 (by rw [h]; rfl), logp_row, h]; rfl

/-- The cross entropy of row j. -/
theorem ce_row (x0 : (⟨S8388608x3, .f32⟩ : BufTy).Contents (Elt Ideal)) (x1 : (⟨S8388608, .i32⟩ : BufTy).Contents (Elt Ideal))
    (j : Fin 8388608) (hj : x1 (ix1 j) = 0#32 ∨ x1 (ix1 j) = 1#32 ∨ x1 (ix1 j) = 2#32) :
    ReadP.val_main_v4 (F := Ideal) x0 x1 (ix1 j) = TradeLoss.rowCeR x0 x1 j := by
  have e : ReadP.idx_main_v3 (ix1 j) = ix2 j (0 : Fin 1) :=
    funext fun a => Fin.ext (by match a with | ⟨0, _⟩ => exact Nat.div_one _ | ⟨1, _⟩ => rfl)
  rw [ReadP.val_main_v4_apply, ReadP.val_main_v3_apply, e, taken_row x0 x1 j hj]
  rfl

/-- |q| of row j. -/
theorem abs_row (x2 : (⟨S8388608, .f32⟩ : BufTy).Contents (Elt Ideal)) (j : Fin 8388608) :
    ReadP.val_main_v5 (F := Ideal) x2 (ix1 j) = TradeLoss.rowAv x2 j := rfl

/-- The trend term of row j. -/
theorem trend_row (x1 : (⟨S8388608, .i32⟩ : BufTy).Contents (Elt Ideal)) (x3 : (⟨S8388608, .f32⟩ : BufTy).Contents (Elt Ideal))
    (j : Fin 8388608) : ReadP.val_main_v24 (F := Ideal) x1 x3 (ix1 j) = TradeLoss.rowTr x1 x3 j := by
  rw [ReadP.val_main_v24_apply, ReadP.val_main_v23_apply, ReadP.val_main_v22_apply, ReadP.val_main_v16_apply,
    ReadP.val_main_v21_apply, ReadP.val_main_v13_apply, ReadP.val_main_v15_apply, ReadP.val_main_v18_apply,
    ReadP.val_main_v20_apply, ReadP.val_main_v12_apply, ReadP.val_main_v14_apply, ReadP.val_main_v17_apply,
    ReadP.val_main_v19_apply, ReadP.val_main_call2_v0_apply, ReadP.val_main_call2_v1_apply, ReadP.val_main_cst_2_apply,
    ReadP.val_main_c_apply, ReadP.val_main_cst_3_apply, ReadP.val_main_c_4_apply, ReadP.val_main_cst_5_apply,
    ReadP.val_main_cst_6_apply]
  rfl

/-- A rank-1 index set is its coordinate's range. -/
def rowsEquiv {n : Nat} : (⟨1, ![n]⟩ : Shape).Idx ≃ Fin n where
  toFun i := i 0
  invFun p := ix1 p
  left_inv i := (eq_ix1 i).symm
  right_inv _ := rfl

/-- A sum over a rank-1 index set is the sum over the coordinate. -/
theorem sum_rows {M : Type*} [AddCommMonoid M] {n : Nat} (f : (⟨1, ![n]⟩ : Shape).Idx → M) :
    ∑ i, f i = ∑ a : Fin n, f (ix1 a) := by
  rw [← Equiv.sum_comp (rowsEquiv (n := n)).symm f]
  rfl
/-- The mean of |q| plus eps, as the reference's scalar stages compute it. -/
theorem denom_eq (x2 : (⟨S8388608, .f32⟩ : BufTy).Contents (Elt Ideal)) (i : S_.Idx) :
    ReadP.val_main_v8 (F := Ideal) x2 i = TradeLoss.denom x2 := by
  rw [ReadP.val_main_v8_apply, ReadP.val_main_v7_apply, ReadP.val_main_v6_apply, ReadP.val_main_cst_apply,
    ReadP.val_main_cst_0_apply, ReadP.val_main_cst_1_apply, sum_rows]
  show Ideal.div (Ideal.ofBits .f32 0x00000000#32 + _) _ + _ = _
  rw [Ideal.ofBits_zero_f32, zero_add]
  rfl

theorem result_eq (x0 : (⟨S8388608x3, .f32⟩ : BufTy).Contents (Elt Ideal)) (x1 : (⟨S8388608, .i32⟩ : BufTy).Contents (Elt Ideal))
    (x2 x3 : (⟨S8388608, .f32⟩ : BufTy).Contents (Elt Ideal))
    (hT : ∀ i, x1 i = 0#32 ∨ x1 i = 1#32 ∨ x1 i = 2#32) :
    Cert.ReferenceIdeal.ReadP.val_main_v35 (F := Ideal) x0 x1 x2 x3 = fun _ => TradeLoss.rTotal x0 x1 x2 x3 := by
  funext i
  have hw : ∀ j : Fin 8388608, ReadP.val_main_v11 (F := Ideal) x0 x1 x2 (ix1 j)
      = TradeLoss.rowCeR x0 x1 j * Ideal.div (TradeLoss.rowAv x2 j) (TradeLoss.denom x2) := fun j => by
    rw [ReadP.val_main_v11_apply, ReadP.val_main_v10_apply, ReadP.val_main_v9_apply, ce_row x0 x1 j (hT _), abs_row, denom_eq]
    rfl
  rw [ReadP.val_main_v35_apply, ReadP.val_main_v31_apply, ReadP.val_main_v27_apply, ReadP.val_main_v30_apply,
    ReadP.val_main_v34_apply, ReadP.val_main_v26_apply, ReadP.val_main_v29_apply, ReadP.val_main_v33_apply,
    ReadP.val_main_v25_apply, ReadP.val_main_v28_apply, ReadP.val_main_v32_apply,
    ReadP.val_main_cst_7_apply, ReadP.val_main_cst_8_apply, ReadP.val_main_cst_9_apply, ReadP.val_main_cst_10_apply,
    ReadP.val_main_cst_11_apply, ReadP.val_main_cst_12_apply, ReadP.val_main_cst_13_apply, ReadP.val_main_cst_14_apply,
    ReadP.val_main_cst_15_apply, sum_rows, sum_rows, sum_rows,
    Finset.sum_congr rfl (fun j _ => hw j), Finset.sum_congr rfl (fun j _ => ce_row x0 x1 j (hT _)),
    Finset.sum_congr rfl (fun j _ => trend_row x1 x3 j)]
  show (_ * Ideal.div (Ideal.ofBits .f32 0x00000000#32 + _) _ + _ * Ideal.div (Ideal.ofBits .f32 0x00000000#32 + _) _)
    + _ * Ideal.div (Ideal.ofBits .f32 0x00000000#32 + _) _ = _
  rw [Ideal.ofBits_zero_f32, zero_add, zero_add, zero_add]
  rfl

end Cert.ReferenceIdeal.RVal

end
-- ==== Proof.PreDecode.lean ====
/-
  What the precondition says of the argument arrays, read off its printed form: every score and every price change is a
  real number, and every label is 0, 1 or 2.
-/
import proofs.«417023_j44762149159049_3_alg».proof.Pre_finite_inputs
import Idealize.ShloMosaic.PureOps.Ideal
import Idealize.ShloMosaic.Lib.ReduceAll
import Idealize.ShloMosaic.Lib.StableHlo.Predicate

noncomputable section

namespace Cert.PreDecode

open Idealize.ShloMosaic Cert.Pre_finite_inputs

/-- The scalar shape has one index. -/
local instance subsingleton_S_ : Subsingleton S_.Idx := ⟨fun _ _ => funext fun d => d.elim0⟩

/-- The pattern 0x7F800000 denotes +∞. -/
theorem ofBits_inf : Ideal.ofBits .f32 0x7F800000#32 = ⊤ := by simp [Ideal.ofBits, Ideal.ieee]

/-- An extended real whose absolute value is below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf] at h
  unfold Ideal.cmp at h
  rw [StableHlo.Predicate.ofBool_eq_one_iff, decide_eq_true_eq] at h
  induction x using EReal.rec with
  | bot => simp at h
  | coe r => exact ⟨r, rfl⟩
  | top => simp at h

/-- A 32-bit word that is at least 0 and below 3, signed, is 0, 1 or 2. -/
theorem label_of_range (t : BitVec 32) (h0 : IntOp.cmpi .sge t 0#32 = 1#1) (h3 : IntOp.cmpi .slt t 3#32 = 1#1) :
    t = 0#32 ∨ t = 1#32 ∨ t = 2#32 := by
  unfold IntOp.cmpi at h0 h3
  rw [StableHlo.Predicate.ofBool_eq_one_iff] at h0 h3
  simp only [BitVec.slt, BitVec.sle, decide_eq_true_eq] at h0 h3
  have h32 := t.isLt
  have hn : t.toNat < 3 := by
    unfold BitVec.toInt at h0 h3
    split at h3 <;> simp at h0 h3 <;> omega
  have hc : t.toNat = 0 ∨ t.toNat = 1 ∨ t.toNat = 2 := by omega
  rcases hc with e | e | e
  · exact Or.inl (BitVec.eq_of_toNat_eq e)
  · exact Or.inr (Or.inl (BitVec.eq_of_toNat_eq e))
  · exact Or.inr (Or.inr (BitVec.eq_of_toNat_eq e))

variable [Cert.Pre_finite_inputs.Facts]

theorem of_pre (a0 : FVec Ideal S8388608x3 .f32) (a1 : IVec S8388608 32) (a2 a3 : FVec Ideal S8388608 .f32)
    (h : Cert.Pre_finite_inputs.fn (F := Ideal) a0 a1 a2 a3 = fun _ => 1#1) :
    (∀ i, ∃ x : ℝ, a0 i = (x : EReal)) ∧ (∀ i, ∃ x : ℝ, a2 i = (x : EReal))
      ∧ (∀ i, a1 i = 0#32 ∨ a1 i = 1#32 ∨ a1 i = 2#32) := by
  have e := congrFun h (fun a => a.elim0)
  dsimp only [Cert.Pre_finite_inputs.fn, Cert.Pre_finite_inputs.fn_part1] at e
  simp only [andi, IntOp.andi_eq_one] at e
  obtain ⟨⟨⟨⟨h0, h2⟩, -⟩, hge⟩, hlt⟩ := e
  refine ⟨fun i => ?_, fun i => ?_, fun i => ?_⟩
  · exact real_of_abs_lt_inf (a0 i) (Host.reduce_andi_all _ _ _ _ _ h0 i)
  · exact real_of_abs_lt_inf (a2 i) (Host.reduce_andi_all _ _ _ _ _ h2 i)
  · exact label_of_range (a1 i) (Host.reduce_andi_all _ _ _ _ _ hge i) (Host.reduce_andi_all _ _ _ _ _ hlt i)

end Cert.PreDecode

end
-- ==== Proof.Bridge.lean ====
/-
  The two arrangements of the loss agree when every score and every price change is a real number: then every row's
  cross entropy and |price change| are real, D = mean |q| + eps is a positive real, -((s - M) - lse) = lse - (s - M),
  and  (sum_j ce_j * (a_j / D)) / n = ((sum_j ce_j * a_j) / n) / D  over the reals.
-/
import proofs.«417023_j44762149159049_3_alg».proof.Proof.Spec
import Mathlib.Data.EReal.Basic
import Mathlib.Data.EReal.Operations
import Mathlib.Data.EReal.Inv
import Mathlib.Analysis.SpecialFunctions.Log.Basic
import Mathlib.Tactic.Ring
import Mathlib.Tactic.Positivity
import Mathlib.Tactic.NormNum

noncomputable section

namespace TradeLoss

open Idealize.ShloMosaic Idealize.ShloMosaic.ValueIdx

namespace Bridge

/-- The largest of two reals, read in the extended reals, is the largest of their readings. -/
theorem coe_max (x y : ℝ) : max (x : EReal) (y : EReal) = ((max x y : ℝ) : EReal) :=
  (Monotone.map_max EReal.coe_strictMono.monotone).symm

/-- A finite sum of reals, read in the extended reals term by term. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The row count 2^23 is a positive real. -/
theorem nW_real : ∃ n : ℝ, nW = (n : EReal) ∧ 0 < n := by
  refine ⟨8388608, ?_, by norm_num⟩
  simp [nW, Ideal.ofBits, Ideal.ieee, -EReal.coe_mul]

/-- eps is a positive real. -/
theorem epsW_real : ∃ e : ℝ, epsW = (e : EReal) ∧ 0 < e := by
  simp [epsW, Ideal.ofBits, Ideal.ieee, -EReal.coe_mul]

/-- Whatever the label, the picked score is one of the three. -/
theorem pick_real (x0 x1 x2 : ℝ) (t : BitVec 32) :
    ∃ s : ℝ, pick (x0 : EReal) (x1 : EReal) (x2 : EReal) t = (s : EReal) := by
  unfold pick Scalar.select
  split_ifs <;> exact ⟨_, rfl⟩

/-- With three real scores the row's cross entropy is real, and the two ways of writing it give the same real:
    lse - (s - M) = -((s - M) - lse). -/
theorem ce_real (x0 x1 x2 : ℝ) (t : BitVec 32) :
    ∃ x : ℝ, ceK (x0 : EReal) (x1 : EReal) (x2 : EReal) t = (x : EReal)
      ∧ ceR (x0 : EReal) (x1 : EReal) (x2 : EReal) t = (x : EReal) := by
  have htop : top (x0 : EReal) (x1 : EReal) (x2 : EReal) = ((max (max x0 x1) x2 : ℝ) : EReal) := by
    unfold top; rw [coe_max, coe_max]
  have hpos : 0 < Real.exp (x0 - max (max x0 x1) x2) + Real.exp (x1 - max (max x0 x1) x2)
      + Real.exp (x2 - max (max x0 x1) x2) := by positivity
  have hlse : lse (x0 : EReal) (x1 : EReal) (x2 : EReal)
      = ((Real.log (Real.exp (x0 - max (max x0 x1) x2) + Real.exp (x1 - max (max x0 x1) x2)
          + Real.exp (x2 - max (max x0 x1) x2)) : ℝ) : EReal) := by
    unfold lse
    rw [htop, ← EReal.coe_sub, ← EReal.coe_sub, ← EReal.coe_sub, Ideal.exp_coe, Ideal.exp_coe, Ideal.exp_coe,
      ← EReal.coe_add, ← EReal.coe_add, Ideal.log_coe, if_neg (not_le.mpr hpos)]
  obtain ⟨s, hs⟩ := pick_real x0 x1 x2 t
  refine ⟨Real.log (Real.exp (x0 - max (max x0 x1) x2) + Real.exp (x1 - max (max x0 x1) x2)
          + Real.exp (x2 - max (max x0 x1) x2)) - (s - max (max x0 x1) x2), ?_, ?_⟩
  · unfold ceK; rw [hlse, hs, htop, ← EReal.coe_sub, ← EReal.coe_sub]
  · unfold ceR; rw [hlse, hs, htop, ← EReal.coe_sub, ← EReal.coe_sub, ← EReal.coe_neg]
    congr 1; ring

/-- |q| of a real q is a real that is not negative. -/
theorem av_real (q : ℝ) : ∃ a : ℝ, av (q : EReal) = (a : EReal) ∧ 0 ≤ a := by
  refine ⟨max q (-q), ?_, ?_⟩
  · unfold av; rw [← EReal.coe_neg, coe_max]
  · rcases le_total 0 q with h | h
    · exact le_max_of_le_left h
    · exact le_max_of_le_right (neg_nonneg.mpr h)

/-- Over the reals: dividing every product by D before the mean, or the mean of the products by D. -/
theorem real_side {ι : Type} (s : Finset ι) (c a : ι → ℝ) (n D : ℝ) :
    (∑ j ∈ s, c j * a j) * (1 / n) * (1 / D) = (∑ j ∈ s, c j * (a j * (1 / D))) * (1 / n) := by
  have h : ∑ j ∈ s, c j * (a j * (1 / D)) = (∑ j ∈ s, c j * a j) * (1 / D) := by
    rw [Finset.sum_mul]; exact Finset.sum_congr rfl (fun j _ => by ring)
  rw [h]; ring

end Bridge

open Bridge in
theorem kTotal_eq_rTotal (P : (⟨2, ![N, 3]⟩ : Shape).Idx → EReal) (T : (⟨1, ![N]⟩ : Shape).Idx → BitVec 32)
    (Q R : (⟨1, ![N]⟩ : Shape).Idx → EReal)
    (hP : ∀ i, ∃ x : ℝ, P i = (x : EReal)) (hQ : ∀ i, ∃ x : ℝ, Q i = (x : EReal)) :
    kTotal P T Q R = rTotal P T Q R := by
  have hce : ∀ j : Fin N, ∃ x : ℝ, rowCeK P T j = (x : EReal) ∧ rowCeR P T j = (x : EReal) := by
    intro j
    obtain ⟨x0, h0⟩ := hP (ix2 j 0)
    obtain ⟨x1, h1⟩ := hP (ix2 j 1)
    obtain ⟨x2, h2⟩ := hP (ix2 j 2)
    unfold rowCeK rowCeR
    rw [h0, h1, h2]
    exact ce_real x0 x1 x2 _
  have hav : ∀ j : Fin N, ∃ a : ℝ, rowAv Q j = (a : EReal) ∧ 0 ≤ a := by
    intro j
    obtain ⟨q, hq⟩ := hQ (ix1 j)
    unfold rowAv
    rw [hq]
    exact av_real q
  choose c hcK hcR using hce
  choose a ha ha0 using hav
  obtain ⟨n, hn, hn0⟩ := nW_real
  obtain ⟨e, he, he0⟩ := epsW_real
  have hS : 0 ≤ ∑ j : Fin N, a j := Finset.sum_nonneg (fun j _ => ha0 j)
  have hDpos : 0 < (∑ j : Fin N, a j) * (1 / n) + e :=
    add_pos_of_nonneg_of_pos (mul_nonneg hS (le_of_lt (one_div_pos.mpr hn0))) he0
  have hsumA : (∑ j : Fin N, rowAv Q j) = ((∑ j : Fin N, a j : ℝ) : EReal) := by
    rw [← coe_sum]; exact Finset.sum_congr rfl (fun j _ => ha j)
  have hD : denom Q = (((∑ j : Fin N, a j) * (1 / n) + e : ℝ) : EReal) := by
    unfold denom
    rw [hsumA, hn, he, Ideal.div_coe hn0.ne', ← EReal.coe_mul, ← EReal.coe_add]
  have h1 : (∑ j : Fin N, rowCeK P T j) = ∑ j : Fin N, rowCeR P T j :=
    Finset.sum_congr rfl (fun j _ => by rw [hcK, hcR])
  have hL : (∑ j : Fin N, rowCeK P T j * rowAv Q j) = ((∑ j : Fin N, c j * a j : ℝ) : EReal) := by
    rw [← coe_sum]; exact Finset.sum_congr rfl (fun j _ => by rw [hcK, ha, EReal.coe_mul])
  have hR : (∑ j : Fin N, rowCeR P T j * Ideal.div (rowAv Q j) (denom Q))
      = ((∑ j : Fin N, c j * (a j * (1 / ((∑ j : Fin N, a j) * (1 / n) + e))) : ℝ) : EReal) := by
    rw [← coe_sum, hD]
    exact Finset.sum_congr rfl (fun j _ => by
      rw [hcR, ha, Ideal.div_coe hDpos.ne', ← EReal.coe_mul, ← EReal.coe_mul])
  have h2 : Ideal.div (Ideal.div (∑ j : Fin N, rowCeK P T j * rowAv Q j) nW) (denom Q)
      = Ideal.div (∑ j : Fin N, rowCeR P T j * Ideal.div (rowAv Q j) (denom Q)) nW := by
    rw [hL, hR, hD, hn, Ideal.div_coe hn0.ne', Ideal.div_coe hDpos.ne', Ideal.div_coe hn0.ne',
      ← EReal.coe_mul, ← EReal.coe_mul, ← EReal.coe_mul]
    exact congrArg Real.toEReal (real_side Finset.univ c a n _)
  unfold kTotal rTotal
  rw [h1, h2]

end TradeLoss

end
-- ==== Proof.Claims.lean ====
/-
  The five claims.  The two kernels' frames are the generated ones; the reference's frame is its run with the result
  dropped.  Nothing was rewritten by the ideal pass.  For the value claim: under the precondition every score and price
  change is real and every label is 0, 1 or 2; the kernel's result is the loss in the arrangement that divides the mean
  of the products by D (`TradeLoss.kTotal`), the reference's the arrangement that divides every row by D first
  (`TradeLoss.rTotal`), and the two agree over the reals.
-/
import proofs.«417023_j44762149159049_3_alg».proof.Defs
import proofs.«417023_j44762149159049_3_alg».proof.Proof.Gen.Kernel.Frame
import proofs.«417023_j44762149159049_3_alg».proof.Proof.Gen.KernelIdeal.Frame
import proofs.«417023_j44762149159049_3_alg».proof.Proof.Gen.ReferenceIdeal
import proofs.«417023_j44762149159049_3_alg».proof.Proof.Gen.Pre_finite_inputs
import proofs.«417023_j44762149159049_3_alg».proof.Proof.KMath
import proofs.«417023_j44762149159049_3_alg».proof.Proof.RRun
import proofs.«417023_j44762149159049_3_alg».proof.Proof.RVal
import proofs.«417023_j44762149159049_3_alg».proof.Proof.PreDecode
import proofs.«417023_j44762149159049_3_alg».proof.Proof.Bridge

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RRun.run (F := Ideal) m ρ)

theorem preserves : Cert.preserves_Kernel_KernelIdeal := trivial

theorem algebraic : Cert.algebraic_KernelIdeal_ReferenceIdeal := by
  intro m ρ m' ρ' hpre hagree
  refine ⟨fun c _ => TradeLoss.kTotal (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (m ((c.tc : Thread _ Cert.KernelIdeal.τ).loc Cert.KernelIdeal.main_arg3)), ?_, ?_⟩
  · exact (θ_run Cert.KernelIdeal.defs _ _).mono
      (fun _ h c => ⟨(h c).1.trans (Cert.KernelIdeal.KVal.tail_eq m c), (h c).2⟩)
      (Cert.KernelIdeal.KVal.run (F := Ideal) m ρ)
  · refine (θ_run Cert.ReferenceIdeal.defs _ _).mono (fun _ h c => ⟨(h c).1.trans ?_, (h c).2⟩)
      (Cert.ReferenceIdeal.RRun.run (F := Ideal) m' ρ')
    obtain ⟨hP, hQ, hT⟩ := Cert.PreDecode.of_pre _ _ _ _ (hpre c)
    rw [(hagree c).1, (hagree c).2.1, (hagree c).2.2.1, (hagree c).2.2.2]
    rw [Cert.ReferenceIdeal.RVal.result_eq _ _ _ _ hT]
    funext _
    exact (TradeLoss.kTotal_eq_rTotal _ _ _ _ hP hQ).symm

end Cert.Proof.Claims

end
-- ==== Proof.lean ====
/-
  The certificate of the trading loss kernel: a cross entropy over three classes reweighted by |price change| plus a
  trend-alignment term, reduced over 8388608 rows to one number.  The kernel accumulates four partial sums per
  TensorCore over 32 grid steps into [8,128] blocks and finishes on the host; the reference computes the same loss with
  jnp.  The claims are proved in Proof/Claims.lean over: the loss as a function of the arrays (Proof/Spec.lean), the
  kernel's accumulation read off its frame run (Proof/KDefs … KMath), the reference's run and stages (Proof/RRun,
  Proof/RVal), the precondition read (Proof/PreDecode) and the real-number identity between the two arrangements
  (Proof/Bridge).
-/
import proofs.«417023_j44762149159049_3_alg».proof.Defs
import proofs.«417023_j44762149159049_3_alg».proof.Proof.Gen.Kernel
import proofs.«417023_j44762149159049_3_alg».proof.Proof.Gen.KernelIdeal
import proofs.«417023_j44762149159049_3_alg».proof.Proof.Gen.ReferenceIdeal
import proofs.«417023_j44762149159049_3_alg».proof.Proof.Gen.Pre_finite_inputs
import proofs.«417023_j44762149159049_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
